-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x1024 : Shape := ⟨2, ![256, 1024]⟩
abbrev S1024 : Shape := ⟨1, ![1024]⟩
abbrev S1024x256 : Shape := ⟨2, ![1024, 256]⟩
abbrev S256 : Shape := ⟨1, ![256]⟩
abbrev S65536x256 : Shape := ⟨2, ![65536, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S65536x256 : S_.BroadcastsInDim S65536x256 (![] : Fin 0 → Fin S65536x256.rank)
  reducesTo_S65536x256_S_d0_1 : S65536x256.ReducesTo [0, 1] S_

variable [Facts]

def fn_part1 {F : FTy → Type} [FloatOps F] (main_arg4 : FVec F S256 .f32) (main_arg5 : FVec F S65536x256 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S65536x256 .f32 := Host.absf main_arg5
  let main_cst_8 : FVec F S_ .f32 := constant S_ .f32 0x7F800000#32
  let main_v25 : FVec F S65536x256 .f32 := broadcastInDim S65536x256 ![] bcast_S_S65536x256 main_cst_8
  let main_v26 : IVec S65536x256 1 := cmpf .olt main_v24 main_v25
  let main_c_9 : IVec S_ 1 := constantI S_ 1 1#1
  let main_v27 : IVec S_ 1 := (fun x v => Host.reduce IntOp.andi x v reducesTo_S65536x256_S_d0_1 h_S_) main_v26 main_c_9
  let main_v28 : IVec S_ 1 := andi main_v23 main_v27
  main_v28

def fn {F : FTy → Type} [FloatOps F] (main_arg0 : FVec F S4096x256 .f32) (main_arg1 : FVec F S256x1024 .f32) (main_arg2 : FVec F S1024 .f32) (main_arg3 : FVec F S1024x256 .f32) (main_arg4 : FVec F S256 .f32) (main_arg5 : FVec F S65536x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_v13 main_v16
-- ==== Kernel.lean ====
abbrev S4096x256 : Shape := ⟨2, ![4096, 256]⟩
abbrev S256x1024 : Shape := ⟨2, ![256, 1024]⟩
abbrev S1024 : Shape := ⟨1, ![1024]⟩
abbrev S1024x256 : Shape := ⟨2, ![1024, 256]⟩
abbrev S256 : Shape := ⟨1, ![256]⟩
abbrev S65536x256 : Shape := ⟨2, ![65536, 256]⟩
abbrev S_ : Shape := ⟨0, ![]⟩
abbrev S65536 : Shape := ⟨1, ![65536]⟩
abbrev S1x65536 : Shape := ⟨2, ![1, 65536]⟩
abbrev S4096x1 : Shape := ⟨2, ![4096, 1]⟩
abbrev S2048x256 : Shape := ⟨2, ![2048, 256]⟩
abbrev S1x2048 : Shape := ⟨2, ![1, 2048]⟩
abbrev S1024x1 : Shape := ⟨2, ![1024, 1]⟩
abbrev S1024x1024 : Shape := ⟨2, ![1024, 1024]⟩
abbrev S1x1024 : Shape := ⟨2, ![1, 1024]⟩
abbrev S1x256 : Shape := ⟨2, ![1, 256]⟩
abbrev S1024x2048 : Shape := ⟨2, ![1024, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S1024, .f32⟩
  | .hbm, ⟨3, _⟩ => ⟨S1024x256, .f32⟩
  | .hbm, ⟨4, _⟩ => ⟨S256, .f32⟩
  | .hbm, ⟨5, _⟩ => ⟨S65536x256, .f32⟩
  | .hbm, ⟨6, _⟩ => ⟨S65536x256, .f32⟩
  | .hbm, ⟨7, _⟩ => ⟨S_, .f32⟩
  | .hbm, ⟨8, _⟩ => ⟨S65536, .f32⟩
  | .hbm, ⟨9, _⟩ => ⟨S1x65536, .f32⟩
  | .hbm, ⟨10, _⟩ => ⟨S4096x1, .f32⟩
  | .hbm, ⟨11, _⟩ => ⟨S4096x256, .f32⟩
  | .local _ .vmem, ⟨0, _⟩ => ⟨S1024x256, .f32⟩
  | .local _ .vmem, ⟨1, _⟩ => ⟨S1024x256, .f32⟩
  | .local _ .vmem, ⟨2, _⟩ => ⟨S256x1024, .f32⟩
  | .local _ .vmem, ⟨3, _⟩ => ⟨S1024, .f32⟩
  | .local _ .vmem, ⟨4, _⟩ => ⟨S1024x256, .f32⟩
  | .local _ .vmem, ⟨5, _⟩ => ⟨S256, .f32⟩
  | .local _ .vmem, ⟨6, _⟩ => ⟨S2048x256, .f32⟩
  | .local _ .vmem, ⟨7, _⟩ => ⟨S2048x256, .f32⟩
  | .local _ .vmem, ⟨8, _⟩ => ⟨S1x2048, .f32⟩
  | .local _ .vmem, ⟨9, _⟩ => ⟨S1x2048, .f32⟩
  | .local _ .vmem, ⟨10, _⟩ => ⟨S1024x1, .f32⟩
  | .local _ .vmem, ⟨11, _⟩ => ⟨S1024x1, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v29 : BitVec 1 := Scalar.cmpi .eq arg1 c31_i32
  let v30 : BitVec 32 := Scalar.extui v29
  let c0_i32_14 : BitVec 32 := 0#32
  let v31 : BitVec 1 := Scalar.cmpi .ne v30 c0_i32_14
  v31

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  reducesTo_S65536x256_S65536_d1 : S65536x256.ReducesTo [1] S65536
  h_S_ : 0 < S_.numel
  bcast_S65536_S1x65536_1 : S65536.BroadcastsInDim S1x65536 (![1] : Fin 1 → Fin S1x65536.rank)
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2048x256_S2048x256_0_0 : ∀ a, (![0, 0] : Fin 2 → Nat) a + S2048x256.size a ≤ S2048x256.size a
  h_S2048x256 : 0 < S2048x256.numel
  reduces_S1024x256_S1024 : S1024x256.Reduces [1] S1024
  shapeCasts_S1024_S1024x1 : S1024.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S65536x256.size a
  hwx0_5 : ∀ i : grid0.Coords, EltTy.bits .f32 = 32 ∨ (Rect.block (s := S65536x256) S2048x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x65536.size a
  hwx0_6 : ∀ i : grid0.Coords, EltTy.bits .f32 = 32 ∨ (Rect.block (s := S1x65536) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S4096x1.size a
  hwx0_7 : ∀ i : grid0.Coords, EltTy.bits .f32 = 32 ∨ (Rect.block (s := S4096x1) S1024x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S4096x256.size a
  hwx0_8 : ∀ i : grid0.Coords, EltTy.bits .f32 = 32 ∨ (Rect.block (s := S4096x256) S1024x256.size (cc0_transform_8 i) (hinb0_8 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1024x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1024x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond1 i == 1#1) | ⟨_ + 9, h⟩ => absurd h (Nat.not_lt.2 (Nat.le_add_left _ _))

class Facts : Prop extends Facts₀ where

variable [Facts]
-- ==== ReferenceIdeal.lean ====
abbrev S4096x256 : Shape := ⟨2, ![4096, 256]⟩
abbrev S256x1024 : Shape := ⟨2, ![256, 1024]⟩
abbrev S1024 : Shape := ⟨1, ![1024]⟩
abbrev S1024x256 : Shape := ⟨2, ![1024, 256]⟩
abbrev S256 : Shape := ⟨1, ![256]⟩
abbrev S65536x256 : Shape := ⟨2, ![65536, 256]⟩
abbrev S4096x1024 : Shape := ⟨2, ![4096, 1024]⟩
abbrev S1x1024 : Shape := ⟨2, ![1, 1024]⟩
abbrev S_ : Shape := ⟨0, ![]⟩
abbrev S1x256 : Shape := ⟨2, ![1, 256]⟩
abbrev S4096 : Shape := ⟨1, ![4096]⟩
abbrev S4096x1 : Shape := ⟨2, ![4096, 1]⟩
abbrev S65536 : Shape := ⟨1, ![65536]⟩
abbrev S1x65536 : Shape := ⟨2, ![1, 65536]⟩
abbrev S4096x65536 : Shape := ⟨2, ![4096, 65536]⟩
abbrev S256x65536 : Shape := ⟨2, ![256, 65536]⟩

abbrev nBuf : Space → Nat
  | .hbm => 42
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S1024, .f32⟩
  | .hbm, ⟨3, _⟩ => ⟨S1024x256, .f32⟩
  | .hbm, ⟨4, _⟩ => ⟨S256, .f32⟩
  | .hbm, ⟨5, _⟩ => ⟨S65536x256, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x256, .f32⟩
  | .hbm, ⟨14, _⟩ => ⟨S1x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S65536x256, .f32⟩
  | .hbm, ⟨22, _⟩ => ⟨S_, .f32⟩
  | .hbm, ⟨23, _⟩ => ⟨S65536, .f32⟩
  | .hbm, ⟨24, _⟩ => ⟨S1x65536, .f32⟩
  | .hbm, ⟨25, _⟩ => ⟨S4096x65536, .f32⟩
  | .hbm, ⟨26, _⟩ => ⟨S4096x65536, .f32⟩
  | .hbm, ⟨27, _⟩ => ⟨S4096x65536, .f32⟩
  | .hbm, ⟨28, _⟩ => ⟨S256x65536, .f32⟩
  | .hbm, ⟨29, _⟩ => ⟨S4096x65536, .f32⟩
  | .hbm, ⟨30, _⟩ => ⟨S_, .f32⟩
  | .hbm, ⟨31, _⟩ => ⟨S4096x65536, .f32⟩
  | .hbm, ⟨32, _⟩ => ⟨S4096x65536, .f32⟩
  | .hbm, ⟨33, _⟩ => ⟨S4096x65536, .f32⟩
  | .hbm, ⟨34, _⟩ => ⟨S_, .f32⟩
  | .hbm, ⟨35, _⟩ => ⟨S4096x65536, .f32⟩
  | .hbm, ⟨36, _⟩ => ⟨S4096x65536, .f32⟩
  | .hbm, ⟨37, _⟩ => ⟨S4096x65536, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  h_S_ : 0 < S_.numel
  bcast_S4096_S4096x1_0 : S4096.BroadcastsInDim S4096x1 (![0] : Fin 1 → Fin S4096x1.rank)
  reducesTo_S65536x256_S65536_d1 : S65536x256.ReducesTo [1] S65536
  bcast_S65536_S1x65536_1 : S65536.BroadcastsInDim S1x65536 (![1] : Fin 1 → Fin S1x65536.rank)
  bcast_S4096x1_S4096x65536_0_1 : S4096x1.BroadcastsInDim S4096x65536 (![0, 1] : Fin 2 → Fin S4096x65536.rank)
  bcast_S1x65536_S4096x65536_0_1 : S1x65536.BroadcastsInDim S4096x65536 (![0, 1] : Fin 2 → Fin S4096x65536.rank)
  transposes_S65536x256_S256x65536_1_0 : S65536x256.Transposes [1, 0] S256x65536
  bcast_S_S4096x65536 : S_.BroadcastsInDim S4096x65536 (![] : Fin 0 → Fin S4096x65536.rank)
  reducesTo_S4096x65536_S4096_d1 : S4096x65536.ReducesTo [1] S4096
  dot_S4096x256_S256x1024_S4096x1024_1_0_0_1_n_n_wf : DotDims.WF S4096x256 S256x1024 S4096x1024 [1] [0] [0] [1] [] []
  dot_S4096x1024_S1024x256_S4096x256_1_0_0_1_n_n_wf : DotDims.WF S4096x1024 S1024x256 S4096x256 [1] [0] [0] [1] [] []
  dot_S4096x256_S256x65536_S4096x65536_1_0_0_1_n_n_wf : DotDims.WF S4096x256 S256x65536 S4096x65536 [1] [0] [0] [1] [] []

variable [Facts₀]

def dot_S4096x256_S256x1024_S4096x1024_1_0_0_1_n_n : DotDims S4096x256 S256x1024 S4096x1024 where
  lhsContracting := [1]
  rhsContracting := [0]
  lhsNonContracting := [0]
  rhsNonContracting := [1]
  lhsBatch := []
  rhsBatch := []
  wf := dot_S4096x256_S256x1024_S4096x1024_1_0_0_1_n_n_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x65536_S4096x65536_1_0_0_1_n_n : DotDims S4096x256 S256x65536 S4096x65536 where
  lhsContracting := [1]
  rhsContracting := [0]
  lhsNonContracting := [0]
  rhsNonContracting := [1]
  lhsBatch := []
  rhsBatch := []
  wf := dot_S4096x256_S256x65536_S4096x65536_1_0_0_1_n_n_wf

class Facts : Prop extends Facts₀ where

variable [Facts]
-- ==== Proof.BitsCases.lean ====
/-
  The grid of the one pallas_call is 4 batch tiles by 32 memory tiles, walked batch tile outermost: point
  t is memory tile t % 32 of batch tile t / 32. The body branches twice on the memory-tile coordinate: at
  the FIRST tile (t % 32 = 0) it computes the encoder block, keeps it in a scratch buffer, stores it to the
  second output and resets the running minimum to +inf; at the LAST tile (t % 32 = 31) it stores tanh of
  the running minimum to the first output. Here: the two conditions in closed form over the grid, where
  each window is idle (the body stores nothing into it), the memrefs the body is called with, and what the
  region's invariant owns (the two scratch buffers and the generator register).
-/
import proofs.«101238_j55087250538839_1_alg».proof.Proof.Gen.Kernel.Frame
import proofs.«101238_j55087250538839_1_alg».proof.Proof.Gen.Kernel.Skeleton

set_option maxRecDepth 16384

noncomputable section

namespace Cert.Kernel.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions -/

/-- The body's first branch is taken: the point is a batch tile's first memory tile. -/
abbrev firstTile (i : grid0.Coords) : Prop := k0_cond1 i = 1#1
/-- The body's second branch is taken: the point is a batch tile's last memory tile. -/
abbrev lastTile (i : grid0.Coords) : Prop := k0_cond2 i = 1#1

theorem firstTile_iff : ∀ t : Fin cfg0.N, firstTile (grid0.coords t) ↔ t.val % 32 = 0 :=
  (by decide +kernel : ∀ t : Fin grid0.N, firstTile (grid0.coords t) ↔ t.val % 32 = 0)

theorem lastTile_iff : ∀ t : Fin cfg0.N, lastTile (grid0.coords t) ↔ t.val % 32 = 31 :=
  (by decide +kernel : ∀ t : Fin grid0.N, lastTile (grid0.coords t) ↔ t.val % 32 = 31)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel

/-- The score window is stored only at a batch tile's last memory tile. -/
theorem idle7_iff : ∀ t : Fin cfg0.N, cfg0.idle 7 (grid0.coords t) = true ↔ ¬ t.val % 32 = 31 :=
  (by decide +kernel : ∀ t : Fin grid0.N, cfg0.idle 7 (grid0.coords t) = true ↔ ¬ t.val % 32 = 31)

/-- The encoder window is stored only at a batch tile's first memory tile. -/
theorem idle8_iff : ∀ t : Fin cfg0.N, cfg0.idle 8 (grid0.coords t) = true ↔ ¬ t.val % 32 = 0 :=
  (by decide +kernel : ∀ t : Fin grid0.N, cfg0.idle 8 (grid0.coords t) = true ↔ ¬ t.val % 32 = 0)

/-! ## The memrefs the body is called with -/

abbrev mem0 (t : Fin cfg0.N) : Memref sig .tc .vmem S1024x256 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S256x1024 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S1024 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S1024x256 .f32 := win0_3.stage (cfg0.slots t 3)
abbrev whole3 (t : Fin cfg0.N) : (mem3 t).IsWhole := hstage0_3 ((cfg0.slots t 3).cast nbuf0_3)
abbrev mem4 (t : Fin cfg0.N) : Memref sig .tc .vmem S256 .f32 := win0_4.stage (cfg0.slots t 4)
abbrev whole4 (t : Fin cfg0.N) : (mem4 t).IsWhole := hstage0_4 ((cfg0.slots t 4).cast nbuf0_4)
abbrev mem5 (t : Fin cfg0.N) : Memref sig .tc .vmem S2048x256 .f32 := win0_5.stage (cfg0.slots t 5)
abbrev whole5 (t : Fin cfg0.N) : (mem5 t).IsWhole := hstage0_5 ((cfg0.slots t 5).cast nbuf0_5)
abbrev mem6 (t : Fin cfg0.N) : Memref sig .tc .vmem S1x2048 .f32 := win0_6.stage (cfg0.slots t 6)
abbrev whole6 (t : Fin cfg0.N) : (mem6 t).IsWhole := hstage0_6 ((cfg0.slots t 6).cast nbuf0_6)
abbrev mem7 (t : Fin cfg0.N) : Memref sig .tc .vmem S1024x1 .f32 := win0_7.stage (cfg0.slots t 7)
abbrev whole7 (t : Fin cfg0.N) : (mem7 t).IsWhole := hstage0_7 ((cfg0.slots t 7).cast nbuf0_7)
abbrev mem8 (t : Fin cfg0.N) : Memref sig .tc .vmem S1024x256 .f32 := win0_8.stage (cfg0.slots t 8)
abbrev whole8 (t : Fin cfg0.N) : (mem8 t).IsWhole := hstage0_8 ((cfg0.slots t 8).cast nbuf0_8)

/-- The scratch buffer that keeps the encoder block of the current batch tile. -/
abbrev encBuf : Memref sig .tc .vmem S1024x256 .f32 := Memref.whole cc0_scratch0
/-- The scratch buffer that keeps the running minimum distance of the current batch tile. -/
abbrev minBuf : Memref sig .tc .vmem S1024x1 .f32 := Memref.whole cc0_scratch1
abbrev encView : View sig .tc .vmem S1024x256 .f32 := encBuf.view
abbrev minView : View sig .tc .vmem S1024x1 .f32 := minBuf.view

/-- What the region's invariant owns: the two scratch buffers at some contents and the generator register. -/
theorem regionInv_eq (c : Dev nD) :
    (Pipeline.ΦA spec0 c : sProp 𝕄)
      = iprop(iprop((∃ d, owns (c : Thread nD τ) encBuf fullShare d) ∗ (∃ d, owns (c : Thread nD τ) minBuf fullShare d)) ∗ (∃ r, prngReg c r)) := by
  unfold Pipeline.ΦA; rw [scopedRest0_eq]; simp only [encBuf, minBuf, owns_whole]; try rfl

end Cert.Kernel.Carry

end
-- ==== Proof.BitsRunFirst.lean ====
/-
  The body at a batch tile's FIRST memory tile (not its last): it computes the encoder block from the
  input block, the two weight matrices and the two biases, stores it into the encoder scratch and into the
  second output's buffer, resets the running minimum to +inf and then lowers it by this tile's distances.
  Stated on any whole memrefs: the inputs' buffers come back as they were, the first output's buffer (not
  touched here) at whatever it held, and the three buffers stored into with their pieces written, the
  pieces being what the symbolic run of the body's skeleton finds.
-/
import proofs.«101238_j55087250538839_1_alg».proof.Proof.BitsCases

set_option maxRecDepth 16384

noncomputable section

namespace Cert.Kernel.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) :
    Σ' (L8 : List (View.Piece (Elt F) S1024x256 .f32)) (LS0 : List (View.Piece (Elt F) S1024x256 .f32)), { LS1 : List (View.Piece (Elt F) S1024x1 .f32) //
      ∀ (d7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, fun d7 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    iexists _; iexact HS1

end Cert.Kernel.Carry

end
-- ==== Proof.BitsRunMid.lean ====
/-
  The body at a memory tile that is neither a batch tile's first nor its last: it reads the encoder block
  the first tile left in scratch and lowers the running minimum by this tile's distances. Both outputs'
  buffers are untouched and come back at whatever they held; the encoder scratch comes back as it was; the
  running minimum's buffer with its one piece written.
-/
import proofs.«101238_j55087250538839_1_alg».proof.Proof.BitsRunFirst

set_option maxRecDepth 16384

noncomputable section

namespace Cert.Kernel.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) :
    { LS1 : List (View.Piece (Elt F) S1024x1 .f32) //
      ∀ (d7 : Vec F S1024x1 .f32) (d8 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ owns (c : Thread nD τ) arg10 fullShare d8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ owns (c : Thread nD τ) arg10 fullShare d8 ∗ owns (c : Thread nD τ) arg11 fullShare xs0 ∗ (∃ f, arg12.view.loc (c : Thread nD τ) ↦[arg12.view.set]{fullShare} arg12.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, fun d7 d8 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; isplitr; · ipureintro; exact harg11.read_unread _
      iexact HS0
    iexists _; iexact HS1

end Cert.Kernel.Carry

end
-- ==== Proof.BitsRunLast.lean ====
/-
  The body at a batch tile's LAST memory tile (not its first): as at a middle tile it lowers the running
  minimum by this tile's distances, then reads it back and stores its tanh into the first output's buffer.
  The second output's buffer is untouched and comes back at whatever it held; the encoder scratch comes
  back as it was; the running minimum's buffer and the first output's buffer with their pieces written.
-/
import proofs.«101238_j55087250538839_1_alg».proof.Proof.BitsRunMid

set_option maxRecDepth 16384

noncomputable section

namespace Cert.Kernel.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) :
    Σ' (L7 : List (View.Piece (Elt F) S1024x1 .f32)), { LS1 : List (View.Piece (Elt F) S1024x1 .f32) //
      ∀ (d8 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare d8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare d8 ∗ owns (c : Thread nD τ) arg11 fullShare xs0 ∗ (∃ f, arg12.view.loc (c : Thread nD τ) ↦[arg12.view.set]{fullShare} arg12.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, fun d8 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [HS0]
    · iexists _; isplitr; · ipureintro; exact harg11.read_unread _
      iexact HS0
    iexists _; iexact HS1

end Cert.Kernel.Carry

end
-- ==== Proof.BitsHeld.lean ====
/-
  What the kernel holds from point to point. After the body at point t the second output's staging
  buffer and the encoder scratch hold the encoder block of batch tile t / 32 (stored at the tile's first
  memory tile, untouched afterwards), the running-minimum scratch holds the minimum over memory tiles
  0 .. t % 32 of the per-tile minimum distance (reset to +inf before the first), and at the tile's last
  memory tile the first output's staging buffer holds tanh of that minimum. Here these contents are named
  by recursion on the point through the pieces the three runs of the body found; what they ARE as
  functions of the arrays is proved elsewhere. Then the pipeline's proof data over them, and what each
  staging buffer holds when the body is entered.
-/
import proofs.«101238_j55087250538839_1_alg».proof.Proof.BitsRunLast
import Idealize.ShloMosaic.Lib.Pipeline.TableIdle

set_option maxRecDepth 16384

noncomputable section

namespace Cert.Kernel.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs' staging buffers as views: what they hold is stated through them. -/
abbrev scoreView : View sig .tc .vmem S1024x1 .f32 := (Memref.whole cc0_stg7_0 : Memref sig .tc .vmem S1024x1 .f32).view
abbrev encOutView : View sig .tc .vmem S1024x256 .f32 := (Memref.whole cc0_stg8_0 : Memref sig .tc .vmem S1024x256 .f32).view

/-! ## What each case leaves: its pieces read back -/

theorem coverFirst_out (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (y : S1024x256.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4 x5 x6).1 S1024x256.size (by sl_kernel_rfl) y

/-- The second output's buffer after a first memory tile. -/
def firstOut (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) : Vec F S1024x256 .f32 :=
  encOutView.read (Elt F) (encOutView.writes (Elt F) encOutView.junk (runFirst c i arg2 harg2 arg3 harg3 arg4 harg4 arg5 harg5 arg6 harg6 arg7 harg7 arg8 harg8 arg9 harg9 arg10 harg10 arg11 harg11 arg12 harg12 hc0 hc1 x0 x1 x2 x3 x4 x5 x6).1)

theorem coverFirst_enc (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (y : S1024x256.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.1 S1024x256.size (by sl_kernel_rfl) y

/-- The encoder scratch after a first memory tile. -/
def firstEnc (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) : Vec F S1024x256 .f32 :=
  encView.read (Elt F) (encView.writes (Elt F) encView.junk (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.1)

theorem coverFirst_low (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (y : S1024x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1024x1.size (by sl_kernel_rfl) y

/-- The running minimum after a first memory tile. -/
def firstLow (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) : Vec F S1024x1 .f32 :=
  minView.read (Elt F) (minView.writes (Elt F) minView.junk (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.2.1)

theorem coverMid_low (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) (y : S1024x1.Idx) :
    ∃ pc ∈ (runMid c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (runMid c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S1024x1.size (by sl_kernel_rfl) y

/-- The running minimum after a middle memory tile, over what the tile before left. -/
def midLow (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) : Vec F S1024x1 .f32 :=
  minView.read (Elt F) (minView.writes (Elt F) minView.junk (runMid c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

theorem coverLast_score (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S1024x1.size (by sl_kernel_rfl) y

/-- The first output's buffer after a last memory tile. -/
def lastScore (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) : Vec F S1024x1 .f32 :=
  scoreView.read (Elt F) (scoreView.writes (Elt F) scoreView.junk (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

theorem coverLast_low (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S1024x1.size (by sl_kernel_rfl) y

/-- The running minimum after a last memory tile, over what the tile before left. -/
def lastLow (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) : Vec F S1024x1 .f32 :=
  minView.read (Elt F) (minView.writes (Elt F) minView.junk (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-! ## The contents point by point -/

/-- What the two outputs' staging buffers and the two scratch buffers hold after the body at a point. -/
structure Held (F : FTy → Type) [FloatOps F] where
  /-- the first output's buffer (named only at a last memory tile) -/
  score : Vec F S1024x1 .f32
  /-- the second output's buffer -/
  encOut : Vec F S1024x256 .f32
  /-- the encoder scratch -/
  enc : Vec F S1024x256 .f32
  /-- the running-minimum scratch -/
  low : Vec F S1024x1 .f32

/-- Contents nothing reads: the first output's buffer away from a last memory tile. -/
def restScore : Vec F S1024x1 .f32 := scoreView.read (Elt F) scoreView.junk

/-- After a first memory tile: everything but the score is fresh from this point's blocks. -/
def firstAt (c : Dev nD) (t : Fin cfg0.N) (h0 : t.val % 32 = 0) (h1 : ¬t.val % 32 = 31) : Held F where
  score := restScore
  encOut := firstOut c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) ((firstTile_iff t).mpr h0) (fun h => h1 ((lastTile_iff t).mp h)) (iblk m c 0 t) (iblk m c 1 t) (iblk m c 2 t) (iblk m c 3 t) (iblk m c 4 t) (iblk m c 5 t) (iblk m c 6 t)
  enc := firstEnc c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) ((firstTile_iff t).mpr h0) (fun h => h1 ((lastTile_iff t).mp h)) (iblk m c 0 t) (iblk m c 1 t) (iblk m c 2 t) (iblk m c 3 t) (iblk m c 4 t) (iblk m c 5 t) (iblk m c 6 t)
  low := firstLow c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) ((firstTile_iff t).mpr h0) (fun h => h1 ((lastTile_iff t).mp h)) (iblk m c 0 t) (iblk m c 1 t) (iblk m c 2 t) (iblk m c 3 t) (iblk m c 4 t) (iblk m c 5 t) (iblk m c 6 t)

/-- After a middle memory tile: the running minimum lowered, the rest as the point before left it. -/
def midAt (c : Dev nD) (t : Fin cfg0.N) (h0 : ¬t.val % 32 = 0) (h1 : ¬t.val % 32 = 31) (prev : Held F) : Held F where
  score := prev.score
  encOut := prev.encOut
  enc := prev.enc
  low := midLow c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) (fun h => h0 ((firstTile_iff t).mp h)) (fun h => h1 ((lastTile_iff t).mp h)) (iblk m c 0 t) (iblk m c 1 t) (iblk m c 2 t) (iblk m c 3 t) (iblk m c 4 t) (iblk m c 5 t) (iblk m c 6 t) prev.enc prev.low

/-- After a last memory tile: the running minimum lowered and its tanh in the first output's buffer. -/
def lastAt (c : Dev nD) (t : Fin cfg0.N) (h0 : ¬t.val % 32 = 0) (h1 : t.val % 32 = 31) (prev : Held F) : Held F where
  score := lastScore c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) (fun h => h0 ((firstTile_iff t).mp h)) ((lastTile_iff t).mpr h1) (iblk m c 0 t) (iblk m c 1 t) (iblk m c 2 t) (iblk m c 3 t) (iblk m c 4 t) (iblk m c 5 t) (iblk m c 6 t) prev.enc prev.low
  encOut := prev.encOut
  enc := prev.enc
  low := lastLow c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) (fun h => h0 ((firstTile_iff t).mp h)) ((lastTile_iff t).mpr h1) (iblk m c 0 t) (iblk m c 1 t) (iblk m c 2 t) (iblk m c 3 t) (iblk m c 4 t) (iblk m c 5 t) (iblk m c 6 t) prev.enc prev.low

/-- THE ACCUMULATION: the contents after the body at position n, by recursion on n. -/
def heldAt (c : Dev nD) : (n : ℕ) → n < cfg0.N → Held F
  | 0, hn => firstAt m c ⟨0, hn⟩ (Nat.zero_mod _) (show ¬0 % 32 = 31 by decide)
  | n + 1, hn =>
    if h0 : (n + 1) % 32 = 0 then firstAt m c ⟨n + 1, hn⟩ h0 (show ¬(n + 1) % 32 = 31 by omega)
    else if h1 : (n + 1) % 32 = 31 then lastAt m c ⟨n + 1, hn⟩ h0 h1 (heldAt c n (Nat.lt_of_succ_lt hn))
    else midAt m c ⟨n + 1, hn⟩ h0 h1 (heldAt c n (Nat.lt_of_succ_lt hn))

theorem heldAt_first (c : Dev nD) (t : Fin cfg0.N) (h0 : t.val % 32 = 0) (h1 : ¬t.val % 32 = 31) :
    heldAt m c t.val t.isLt = firstAt m c t h0 h1 := by
  obtain ⟨n, hn⟩ := t
  cases n with
  | zero => rfl
  | succ n => exact (dif_pos h0).trans rfl

theorem heldAt_mid (c : Dev nD) (t : Fin cfg0.N) (h0 : ¬t.val % 32 = 0) (h1 : ¬t.val % 32 = 31) :
    heldAt m c t.val t.isLt = midAt m c t h0 h1 (heldAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem heldAt_last (c : Dev nD) (t : Fin cfg0.N) (h0 : ¬t.val % 32 = 0) (h1 : t.val % 32 = 31) :
    heldAt m c t.val t.isLt = lastAt m c t h0 h1 (heldAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- Away from a first memory tile the second output's buffer holds what the point before left. -/
theorem heldAt_encOut_carried (c : Dev nD) (t : Fin cfg0.N) (h0 : ¬t.val % 32 = 0) :
    (heldAt m c t.val t.isLt).encOut = (heldAt m c (t.val - 1) (Nat.lt_of_le_of_lt (Nat.sub_le _ _) t.isLt)).encOut := by
  by_cases h1 : t.val % 32 = 31
  · rw [heldAt_last m c t h0 h1]; rfl
  · rw [heldAt_mid m c t h0 h1]; rfl

/-! ## The region's invariant point by point -/

/-- Before position n: at the region's entry the two scratch buffers hold anything; afterwards the
    encoder block and the running minimum the point before left. -/
def heldInv (c : Dev nD) : (n : ℕ) → n ≤ cfg0.N → sProp 𝕄
  | 0, _ => Pipeline.ΦA spec0 c
  | n + 1, hn => iprop(iprop(owns (c : Thread nD τ) encBuf fullShare (heldAt m c n hn).enc ∗ owns (c : Thread nD τ) minBuf fullShare (heldAt m c n hn).low) ∗ (∃ r, prngReg c r))

theorem heldInv_zero (c : Dev nD) (n : ℕ) (h : n ≤ cfg0.N) (hz : n = 0) : heldInv m c n h = Pipeline.ΦA spec0 c := by
  subst hz; rfl

theorem heldInv_succ (c : Dev nD) (n : ℕ) (hn : n < cfg0.N) :
    heldInv m c (n + 1) hn = iprop(iprop(owns (c : Thread nD τ) encBuf fullShare (heldAt m c n hn).enc ∗ owns (c : Thread nD τ) minBuf fullShare (heldAt m c n hn).low) ∗ (∃ r, prngReg c r)) := rfl

theorem heldInv_pos (c : Dev nD) (n : ℕ) (h : n ≤ cfg0.N) (hz : n ≠ 0) :
    heldInv m c n h = iprop(iprop(owns (c : Thread nD τ) encBuf fullShare (heldAt m c (n - 1) (by omega)).enc ∗ owns (c : Thread nD τ) minBuf fullShare (heldAt m c (n - 1) (by omega)).low) ∗ (∃ r, prngReg c r)) := by
  cases n with
  | zero => exact absurd rfl hz
  | succ n => rfl

/-! ## The pipeline's proof data -/

/-- The arrays as the region finds them; after the body each input's buffer at its block, the outputs'
    at the accumulation's components; the invariant the one above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (heldAt m c t.val t.isLt).score
    | ⟨8, _⟩ => (heldAt m c t.val t.isLt).encOut
  Φ t := heldInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = heldInv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (heldAt m c t.val t.isLt).score := by dsimp only [dats]
theorem after8 (c : Dev nD) (t : Fin cfg0.N) : (dats m 0 c).after 8 t = (heldAt m c t.val t.isLt).encOut := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- Whether the second output's buffer holds nothing the body stored when the body runs at position n:
    exactly at the first memory tiles. -/
theorem fresh8 (n : ℕ) (hn : n ≤ cfg0.N) : cfg0.fresh 8 n = decide (n % 32 = 0) :=
  Pipeline.Cfg.fresh_tab cfg0 8 (fun n => decide (n % 32 = 0)) (by decide)
    (by decide +kernel : ∀ t : Fin grid0.N, decide ((t.val + 1) % 32 = 0)
      = ((cfg0.win 8).flush t || (cfg0.idle 8 (grid0.coords t) && decide (t.val % 32 = 0)))) n hn

/-- Away from a first memory tile the second output's current staging buffer holds, when the body is
    entered, what the accumulation says of the point before: the buffer was stored at the batch tile's
    first memory tile and neither written back nor stored into since. -/
theorem before8_carried (c : Dev nD) (t : Fin cfg0.N) (h0 : ¬t.val % 32 = 0) (d) :
    (dats m 0 c).before 8 t d = (heldAt m c (t.val - 1) (Nat.lt_of_le_of_lt (Nat.sub_le _ _) t.isLt)).encOut := by
  rw [Pipeline.Dat.before_out_traj (dats m 0 c) 8 rfl (fun _ _ => rfl)
    (fun s hs _ hfr => by
      have hs0 : ¬s.val % 32 = 0 := fun h => by
        rw [fresh8 s.val (Nat.le_of_lt s.isLt), decide_eq_false_iff_not] at hfr; exact hfr h
      rw [after8, after8]; exact heldAt_encOut_carried m c s hs0)
    t.val t rfl d,
    fresh8 t.val (Nat.le_of_lt t.isLt), if_neg (by simpa using h0), after8]

end Cert.Kernel.Carry

end
-- ==== Proof.BitsBody.lean ====
/-
  The body obligation of the pipeline: at every point, from the invariant and every window's current
  staging buffer at what it then holds, the body runs to the invariant at the next point and every buffer
  at what the proof data says it leaves. By cases on the point's memory tile (first, middle, last), each
  case the corresponding run of the body. An output the case does not store into is handed back as it
  was found; at a batch tile's last memory tile the second output, written back there though not stored
  into, is found holding the encoder block the first memory tile stored, which is what the proof data
  says it leaves. Then the launch: the whole program runs, and every array ends at what the library
  computes from the proof data.
-/
import proofs.«101238_j55087250538839_1_alg».proof.Proof.BitsHeld

set_option maxRecDepth 16384

noncomputable section

namespace Cert.Kernel.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = heldInv m c (t.val + 1) t.isLt from rfl, heldInv_succ]
  have hN : t.val < 128 := lt_of_lt_of_eq t.isLt (show cfg0.N = 128 from N_0)
  rw [show (dats m 0 c).leavesExact 0 t = owns (c : Thread nD τ) (mem0 t) fullShare ((dats m 0 c).after 0 t) from by
    unfold Dat.leavesExact; rw [live0 t], after0]
  rw [show (dats m 0 c).leavesExact 1 t = owns (c : Thread nD τ) (mem1 t) fullShare ((dats m 0 c).after 1 t) from by
    unfold Dat.leavesExact; rw [live1 t], after1]
  rw [show (dats m 0 c).leavesExact 2 t = owns (c : Thread nD τ) (mem2 t) fullShare ((dats m 0 c).after 2 t) from by
    unfold Dat.leavesExact; rw [live2 t], after2]
  rw [show (dats m 0 c).leavesExact 3 t = owns (c : Thread nD τ) (mem3 t) fullShare ((dats m 0 c).after 3 t) from by
    unfold Dat.leavesExact; rw [live3 t], after3]
  rw [show (dats m 0 c).leavesExact 4 t = owns (c : Thread nD τ) (mem4 t) fullShare ((dats m 0 c).after 4 t) from by
    unfold Dat.leavesExact; rw [live4 t], after4]
  rw [show (dats m 0 c).leavesExact 5 t = owns (c : Thread nD τ) (mem5 t) fullShare ((dats m 0 c).after 5 t) from by
    unfold Dat.leavesExact; rw [live5 t], after5]
  rw [show (dats m 0 c).leavesExact 6 t = owns (c : Thread nD τ) (mem6 t) fullShare ((dats m 0 c).after 6 t) from by
    unfold Dat.leavesExact; rw [live6 t], after6]
  by_cases h0 : t.val % 32 = 0
  · have h1 : ¬t.val % 32 = 31 := by omega
    rw [Dat.leavesExact_idle _ 7 t ((idle7_iff t).mpr h1) (Bool.eq_false_iff.mpr fun h => h1 ((flush0_7 t).mp h))]
    rw [show (dats m 0 c).leavesExact 8 t = owns (c : Thread nD τ) (mem8 t) fullShare ((dats m 0 c).after 8 t) from by
      unfold Dat.leavesExact; rw [Bool.eq_false_iff.mpr fun h => (idle8_iff t).mp h h0], after8]
    rw [heldAt_first m c t h0 h1]
    unfold firstAt firstOut firstEnc firstLow; dsimp only
    by_cases hz : t.val = 0
    · rw [inv_castSucc m c t, heldInv_zero m c _ _ hz, regionInv_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runFirst c (grid0.coords t) _ _ _ _ _ _ _ _ _ _ _ _ _ _ _ _ _ _ _ _ _ _ ((firstTile_iff t).mpr h0) (fun h => h1 ((lastTile_iff t).mp h)) (iblk m c 0 t) (iblk m c 1 t) (iblk m c 2 t) (iblk m c 3 t) (iblk m c 4 t) (iblk m c 5 t) (iblk m c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirst_enc c _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (coverFirst_low c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      unfold owns; iexists _; isplitr
      swap; · iexact H8
      ipureintro; exact View.read_writes_of_cover _ _ _ _ _ (coverFirst_out c _ _ _ _ _ _ _ _ _ _ _ _ _ _ _ _ _ _ _ _ _ _ _ _ _ _ _ _ _ _ _ _)
    · rw [inv_castSucc m c t, heldInv_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runFirst c (grid0.coords t) _ _ _ _ _ _ _ _ _ _ _ _ _ _ _ _ _ _ _ _ _ _ ((firstTile_iff t).mpr h0) (fun h => h1 ((lastTile_iff t).mp h)) (iblk m c 0 t) (iblk m c 1 t) (iblk m c 2 t) (iblk m c 3 t) (iblk m c 4 t) (iblk m c 5 t) (iblk m c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      isplitl [HS1]; · iexists _; iexact HS1
      iintro ⟨H0, H1, H2, H3, H4, H5, H6, H7, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirst_enc c _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (coverFirst_low c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      unfold owns; iexists _; isplitr
      swap; · iexact H8
      ipureintro; exact View.read_writes_of_cover _ _ _ _ _ (coverFirst_out c _ _ _ _ _ _ _ _ _ _ _ _ _ _ _ _ _ _ _ _ _ _ _ _ _ _ _ _ _ _ _ _)
  · by_cases h1 : t.val % 32 = 31
    · rw [show (dats m 0 c).leavesExact 7 t = owns (c : Thread nD τ) (mem7 t) fullShare ((dats m 0 c).after 7 t) from by
        unfold Dat.leavesExact; rw [Bool.eq_false_iff.mpr fun h => (idle7_iff t).mp h h1], after7]
      rw [show (dats m 0 c).leavesExact 8 t = owns (c : Thread nD τ) (mem8 t) fullShare ((dats m 0 c).after 8 t) from by
        unfold Dat.leavesExact; rw [(idle8_iff t).mpr h0, (flush0_8 t).mpr h1], after8]
      simp only [before8_carried m c t h0]
      rw [heldAt_last m c t h0 h1]
      unfold lastAt lastScore lastLow; dsimp only
      have hz : t.val ≠ 0 := fun h => h0 (by rw [h])
      rw [inv_castSucc m c t, heldInv_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast c (grid0.coords t) _ _ _ _ _ _ _ _ _ _ _ _ _ _ _ _ _ _ _ _ _ _ (fun h => h0 ((firstTile_iff t).mp h)) ((lastTile_iff t).mpr h1) (iblk m c 0 t) (iblk m c 1 t) (iblk m c 2 t) (iblk m c 3 t) (iblk m c 4 t) (iblk m c 5 t) (iblk m c 6 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      isplitl [HS1]; · iexact HS1
      iintro ⟨H0, H1, H2, H3, H4, H5, H6, ⟨%e7, H7⟩, H8, HS0, ⟨%es1, HS1⟩⟩
      isplitl [HS0 HS1 Hg]
      · isplitl [HS0 HS1]
        · isplitl [HS0]
          · iexact HS0
          unfold owns; iexists _; isplitr
          swap; · iexact HS1
          ipureintro; exact View.read_writes_of_cover _ _ _ _ _ (coverLast_low c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverLast_score c _ _ _ _ _ _ _ _ _ _ _ _ _ _ _ _ _ _ _ _ _ _ _ _ _ _ _ _ _ _ _ _ _ _)
      iexact H8
    · rw [Dat.leavesExact_idle _ 7 t ((idle7_iff t).mpr h1) (Bool.eq_false_iff.mpr fun h => h1 ((flush0_7 t).mp h))]
      rw [Dat.leavesExact_idle _ 8 t ((idle8_iff t).mpr h0) (Bool.eq_false_iff.mpr fun h => h1 ((flush0_8 t).mp h))]
      rw [heldAt_mid m c t h0 h1]
      unfold midAt midLow; dsimp only
      have hz : t.val ≠ 0 := fun h => h0 (by rw [h])
      rw [inv_castSucc m c t, heldInv_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runMid c (grid0.coords t) _ _ _ _ _ _ _ _ _ _ _ _ _ _ _ _ _ _ _ _ _ _ (fun h => h0 ((firstTile_iff t).mp h)) (fun h => h1 ((lastTile_iff t).mp h)) (iblk m c 0 t) (iblk m c 1 t) (iblk m c 2 t) (iblk m c 3 t) (iblk m c 4 t) (iblk m c 5 t) (iblk m c 6 t) _ _).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, ⟨%es1, HS1⟩⟩
      isplitl [HS0 HS1 Hg]
      · isplitl [HS0 HS1]
        · isplitl [HS0]
          · iexact HS0
          unfold owns; iexists _; isplitr
          swap; · iexact HS1
          ipureintro; exact View.read_writes_of_cover _ _ _ _ _ (coverMid_low c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = heldInv m c 0 (Nat.zero_le _) from rfl, heldInv_zero m c 0 _ rfl]
  try exact Idealize.SL.BI.Entails.refl _

/-- After the last point the invariant gives the scratch buffers back at some contents. -/
theorem inv_out (c : Dev nD) : (dats m 0 c).Φ (Fin.last cfg0.N) ⊢ Pipeline.ΦA spec0 c := by
  rw [show (dats m 0 c).Φ (Fin.last cfg0.N) = heldInv m c (Fin.last cfg0.N).val (Nat.le_of_lt_succ (Fin.last cfg0.N).isLt) from rfl,
    heldInv_pos m c _ _ (by rw [Fin.val_last]; have : cfg0.N = 128 := N_0; omega), regionInv_eq]
  iintro ⟨⟨HS0, HS1⟩, Hg⟩
  isplitl [HS0 HS1]
  · isplitl [HS0]
    · iexists _; iexact HS0
    iexists _; iexact HS1
  iexact Hg

set_option backward.isDefEq.respectTransparency.types false in
/-- From any memory with zero counters every weakly fair execution of the program terminates, and in
    every final state each array of the pipeline holds what the library computes from the proof data
    (an output: its blocks written back in point order) and every other buffer what the region found. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame: the program runs and leaves its six argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Carry

end
-- ==== Proof.IdealCases.lean ====
/-
  The grid of the one pallas_call is 4 batch tiles by 32 memory tiles, walked batch tile outermost: point
  t is memory tile t % 32 of batch tile t / 32. The body branches twice on the memory-tile coordinate: at
  the FIRST tile (t % 32 = 0) it computes the encoder block, keeps it in a scratch buffer, stores it to the
  second output and resets the running minimum to +inf; at the LAST tile (t % 32 = 31) it stores tanh of
  the running minimum to the first output. Here: the two conditions in closed form over the grid, where
  each window is idle (the body stores nothing into it), the memrefs the body is called with, and what the
  region's invariant owns (the two scratch buffers and the generator register).
-/
import proofs.«101238_j55087250538839_1_alg».proof.Proof.Gen.KernelIdeal.Frame
import proofs.«101238_j55087250538839_1_alg».proof.Proof.Gen.KernelIdeal.Skeleton

set_option maxRecDepth 16384

noncomputable section

namespace Cert.KernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions -/

/-- The body's first branch is taken: the point is a batch tile's first memory tile. -/
abbrev firstTile (i : grid0.Coords) : Prop := k0_cond1 i = 1#1
/-- The body's second branch is taken: the point is a batch tile's last memory tile. -/
abbrev lastTile (i : grid0.Coords) : Prop := k0_cond2 i = 1#1

theorem firstTile_iff : ∀ t : Fin cfg0.N, firstTile (grid0.coords t) ↔ t.val % 32 = 0 :=
  (by decide +kernel : ∀ t : Fin grid0.N, firstTile (grid0.coords t) ↔ t.val % 32 = 0)

theorem lastTile_iff : ∀ t : Fin cfg0.N, lastTile (grid0.coords t) ↔ t.val % 32 = 31 :=
  (by decide +kernel : ∀ t : Fin grid0.N, lastTile (grid0.coords t) ↔ t.val % 32 = 31)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel

/-- The score window is stored only at a batch tile's last memory tile. -/
theorem idle7_iff : ∀ t : Fin cfg0.N, cfg0.idle 7 (grid0.coords t) = true ↔ ¬ t.val % 32 = 31 :=
  (by decide +kernel : ∀ t : Fin grid0.N, cfg0.idle 7 (grid0.coords t) = true ↔ ¬ t.val % 32 = 31)

/-- The encoder window is stored only at a batch tile's first memory tile. -/
theorem idle8_iff : ∀ t : Fin cfg0.N, cfg0.idle 8 (grid0.coords t) = true ↔ ¬ t.val % 32 = 0 :=
  (by decide +kernel : ∀ t : Fin grid0.N, cfg0.idle 8 (grid0.coords t) = true ↔ ¬ t.val % 32 = 0)

/-! ## The memrefs the body is called with -/

abbrev mem0 (t : Fin cfg0.N) : Memref sig .tc .vmem S1024x256 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S256x1024 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S1024 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S1024x256 .f32 := win0_3.stage (cfg0.slots t 3)
abbrev whole3 (t : Fin cfg0.N) : (mem3 t).IsWhole := hstage0_3 ((cfg0.slots t 3).cast nbuf0_3)
abbrev mem4 (t : Fin cfg0.N) : Memref sig .tc .vmem S256 .f32 := win0_4.stage (cfg0.slots t 4)
abbrev whole4 (t : Fin cfg0.N) : (mem4 t).IsWhole := hstage0_4 ((cfg0.slots t 4).cast nbuf0_4)
abbrev mem5 (t : Fin cfg0.N) : Memref sig .tc .vmem S2048x256 .f32 := win0_5.stage (cfg0.slots t 5)
abbrev whole5 (t : Fin cfg0.N) : (mem5 t).IsWhole := hstage0_5 ((cfg0.slots t 5).cast nbuf0_5)
abbrev mem6 (t : Fin cfg0.N) : Memref sig .tc .vmem S1x2048 .f32 := win0_6.stage (cfg0.slots t 6)
abbrev whole6 (t : Fin cfg0.N) : (mem6 t).IsWhole := hstage0_6 ((cfg0.slots t 6).cast nbuf0_6)
abbrev mem7 (t : Fin cfg0.N) : Memref sig .tc .vmem S1024x1 .f32 := win0_7.stage (cfg0.slots t 7)
abbrev whole7 (t : Fin cfg0.N) : (mem7 t).IsWhole := hstage0_7 ((cfg0.slots t 7).cast nbuf0_7)
abbrev mem8 (t : Fin cfg0.N) : Memref sig .tc .vmem S1024x256 .f32 := win0_8.stage (cfg0.slots t 8)
abbrev whole8 (t : Fin cfg0.N) : (mem8 t).IsWhole := hstage0_8 ((cfg0.slots t 8).cast nbuf0_8)

/-- The scratch buffer that keeps the encoder block of the current batch tile. -/
abbrev encBuf : Memref sig .tc .vmem S1024x256 .f32 := Memref.whole cc0_scratch0
/-- The scratch buffer that keeps the running minimum distance of the current batch tile. -/
abbrev minBuf : Memref sig .tc .vmem S1024x1 .f32 := Memref.whole cc0_scratch1
abbrev encView : View sig .tc .vmem S1024x256 .f32 := encBuf.view
abbrev minView : View sig .tc .vmem S1024x1 .f32 := minBuf.view

/-- What the region's invariant owns: the two scratch buffers at some contents and the generator register. -/
theorem regionInv_eq (c : Dev nD) :
    (Pipeline.ΦA spec0 c : sProp 𝕄)
      = iprop(iprop((∃ d, owns (c : Thread nD τ) encBuf fullShare d) ∗ (∃ d, owns (c : Thread nD τ) minBuf fullShare d)) ∗ (∃ r, prngReg c r)) := by
  unfold Pipeline.ΦA; rw [scopedRest0_eq]; simp only [encBuf, minBuf, owns_whole]; try rfl

end Cert.KernelIdeal.Carry

end
-- ==== Proof.IdealRunFirst.lean ====
/-
  The body at a batch tile's FIRST memory tile (not its last): it computes the encoder block from the
  input block, the two weight matrices and the two biases, stores it into the encoder scratch and into the
  second output's buffer, resets the running minimum to +inf and then lowers it by this tile's distances.
  Stated on any whole memrefs: the inputs' buffers come back as they were, the first output's buffer (not
  touched here) at whatever it held, and the three buffers stored into with their pieces written, the
  pieces being what the symbolic run of the body's skeleton finds.
-/
import proofs.«101238_j55087250538839_1_alg».proof.Proof.IdealCases

set_option maxRecDepth 16384

noncomputable section

namespace Cert.KernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) :
    Σ' (L8 : List (View.Piece (Elt F) S1024x256 .f32)) (LS0 : List (View.Piece (Elt F) S1024x256 .f32)), { LS1 : List (View.Piece (Elt F) S1024x1 .f32) //
      ∀ (d7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, fun d7 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    iexists _; iexact HS1

end Cert.KernelIdeal.Carry

end
-- ==== Proof.IdealRunMid.lean ====
/-
  The body at a memory tile that is neither a batch tile's first nor its last: it reads the encoder block
  the first tile left in scratch and lowers the running minimum by this tile's distances. Both outputs'
  buffers are untouched and come back at whatever they held; the encoder scratch comes back as it was; the
  running minimum's buffer with its one piece written.
-/
import proofs.«101238_j55087250538839_1_alg».proof.Proof.IdealRunFirst

set_option maxRecDepth 16384

noncomputable section

namespace Cert.KernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) :
    { LS1 : List (View.Piece (Elt F) S1024x1 .f32) //
      ∀ (d7 : Vec F S1024x1 .f32) (d8 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ owns (c : Thread nD τ) arg10 fullShare d8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ owns (c : Thread nD τ) arg10 fullShare d8 ∗ owns (c : Thread nD τ) arg11 fullShare xs0 ∗ (∃ f, arg12.view.loc (c : Thread nD τ) ↦[arg12.view.set]{fullShare} arg12.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, fun d7 d8 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; isplitr; · ipureintro; exact harg11.read_unread _
      iexact HS0
    iexists _; iexact HS1

end Cert.KernelIdeal.Carry

end
-- ==== Proof.IdealRunLast.lean ====
/-
  The body at a batch tile's LAST memory tile (not its first): as at a middle tile it lowers the running
  minimum by this tile's distances, then reads it back and stores its tanh into the first output's buffer.
  The second output's buffer is untouched and comes back at whatever it held; the encoder scratch comes
  back as it was; the running minimum's buffer and the first output's buffer with their pieces written.
-/
import proofs.«101238_j55087250538839_1_alg».proof.Proof.IdealRunMid

set_option maxRecDepth 16384

noncomputable section

namespace Cert.KernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) :
    Σ' (L7 : List (View.Piece (Elt F) S1024x1 .f32)), { LS1 : List (View.Piece (Elt F) S1024x1 .f32) //
      ∀ (d8 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare d8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare d8 ∗ owns (c : Thread nD τ) arg11 fullShare xs0 ∗ (∃ f, arg12.view.loc (c : Thread nD τ) ↦[arg12.view.set]{fullShare} arg12.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, fun d8 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [HS0]
    · iexists _; isplitr; · ipureintro; exact harg11.read_unread _
      iexact HS0
    iexists _; iexact HS1

end Cert.KernelIdeal.Carry

end
-- ==== Proof.IdealHeld.lean ====
/-
  What the kernel holds from point to point. After the body at point t the second output's staging
  buffer and the encoder scratch hold the encoder block of batch tile t / 32 (stored at the tile's first
  memory tile, untouched afterwards), the running-minimum scratch holds the minimum over memory tiles
  0 .. t % 32 of the per-tile minimum distance (reset to +inf before the first), and at the tile's last
  memory tile the first output's staging buffer holds tanh of that minimum. Here these contents are named
  by recursion on the point through the pieces the three runs of the body found; what they ARE as
  functions of the arrays is proved elsewhere. Then the pipeline's proof data over them, and what each
  staging buffer holds when the body is entered.
-/
import proofs.«101238_j55087250538839_1_alg».proof.Proof.IdealRunLast
import Idealize.ShloMosaic.Lib.Pipeline.TableIdle

set_option maxRecDepth 16384

noncomputable section

namespace Cert.KernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs' staging buffers as views: what they hold is stated through them. -/
abbrev scoreView : View sig .tc .vmem S1024x1 .f32 := (Memref.whole cc0_stg7_0 : Memref sig .tc .vmem S1024x1 .f32).view
abbrev encOutView : View sig .tc .vmem S1024x256 .f32 := (Memref.whole cc0_stg8_0 : Memref sig .tc .vmem S1024x256 .f32).view

/-! ## What each case leaves: its pieces read back -/

theorem coverFirst_out (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (y : S1024x256.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4 x5 x6).1 S1024x256.size (by sl_kernel_rfl) y

/-- The second output's buffer after a first memory tile. -/
def firstOut (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) : Vec F S1024x256 .f32 :=
  encOutView.read (Elt F) (encOutView.writes (Elt F) encOutView.junk (runFirst c i arg2 harg2 arg3 harg3 arg4 harg4 arg5 harg5 arg6 harg6 arg7 harg7 arg8 harg8 arg9 harg9 arg10 harg10 arg11 harg11 arg12 harg12 hc0 hc1 x0 x1 x2 x3 x4 x5 x6).1)

theorem coverFirst_enc (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (y : S1024x256.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.1 S1024x256.size (by sl_kernel_rfl) y

/-- The encoder scratch after a first memory tile. -/
def firstEnc (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) : Vec F S1024x256 .f32 :=
  encView.read (Elt F) (encView.writes (Elt F) encView.junk (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.1)

theorem coverFirst_low (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (y : S1024x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1024x1.size (by sl_kernel_rfl) y

/-- The running minimum after a first memory tile. -/
def firstLow (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) : Vec F S1024x1 .f32 :=
  minView.read (Elt F) (minView.writes (Elt F) minView.junk (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.2.1)

theorem coverMid_low (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) (y : S1024x1.Idx) :
    ∃ pc ∈ (runMid c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (runMid c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S1024x1.size (by sl_kernel_rfl) y

/-- The running minimum after a middle memory tile, over what the tile before left. -/
def midLow (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) : Vec F S1024x1 .f32 :=
  minView.read (Elt F) (minView.writes (Elt F) minView.junk (runMid c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

theorem coverLast_score (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S1024x1.size (by sl_kernel_rfl) y

/-- The first output's buffer after a last memory tile. -/
def lastScore (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) : Vec F S1024x1 .f32 :=
  scoreView.read (Elt F) (scoreView.writes (Elt F) scoreView.junk (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

theorem coverLast_low (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S1024x1.size (by sl_kernel_rfl) y

/-- The running minimum after a last memory tile, over what the tile before left. -/
def lastLow (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) : Vec F S1024x1 .f32 :=
  minView.read (Elt F) (minView.writes (Elt F) minView.junk (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-! ## The contents point by point -/

/-- What the two outputs' staging buffers and the two scratch buffers hold after the body at a point. -/
structure Held (F : FTy → Type) [FloatOps F] where
  /-- the first output's buffer (named only at a last memory tile) -/
  score : Vec F S1024x1 .f32
  /-- the second output's buffer -/
  encOut : Vec F S1024x256 .f32
  /-- the encoder scratch -/
  enc : Vec F S1024x256 .f32
  /-- the running-minimum scratch -/
  low : Vec F S1024x1 .f32

/-- Contents nothing reads: the first output's buffer away from a last memory tile. -/
def restScore : Vec F S1024x1 .f32 := scoreView.read (Elt F) scoreView.junk

/-- After a first memory tile: everything but the score is fresh from this point's blocks. -/
def firstAt (c : Dev nD) (t : Fin cfg0.N) (h0 : t.val % 32 = 0) (h1 : ¬t.val % 32 = 31) : Held F where
  score := restScore
  encOut := firstOut c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) ((firstTile_iff t).mpr h0) (fun h => h1 ((lastTile_iff t).mp h)) (iblk m c 0 t) (iblk m c 1 t) (iblk m c 2 t) (iblk m c 3 t) (iblk m c 4 t) (iblk m c 5 t) (iblk m c 6 t)
  enc := firstEnc c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) ((firstTile_iff t).mpr h0) (fun h => h1 ((lastTile_iff t).mp h)) (iblk m c 0 t) (iblk m c 1 t) (iblk m c 2 t) (iblk m c 3 t) (iblk m c 4 t) (iblk m c 5 t) (iblk m c 6 t)
  low := firstLow c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) ((firstTile_iff t).mpr h0) (fun h => h1 ((lastTile_iff t).mp h)) (iblk m c 0 t) (iblk m c 1 t) (iblk m c 2 t) (iblk m c 3 t) (iblk m c 4 t) (iblk m c 5 t) (iblk m c 6 t)

/-- After a middle memory tile: the running minimum lowered, the rest as the point before left it. -/
def midAt (c : Dev nD) (t : Fin cfg0.N) (h0 : ¬t.val % 32 = 0) (h1 : ¬t.val % 32 = 31) (prev : Held F) : Held F where
  score := prev.score
  encOut := prev.encOut
  enc := prev.enc
  low := midLow c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) (fun h => h0 ((firstTile_iff t).mp h)) (fun h => h1 ((lastTile_iff t).mp h)) (iblk m c 0 t) (iblk m c 1 t) (iblk m c 2 t) (iblk m c 3 t) (iblk m c 4 t) (iblk m c 5 t) (iblk m c 6 t) prev.enc prev.low

/-- After a last memory tile: the running minimum lowered and its tanh in the first output's buffer. -/
def lastAt (c : Dev nD) (t : Fin cfg0.N) (h0 : ¬t.val % 32 = 0) (h1 : t.val % 32 = 31) (prev : Held F) : Held F where
  score := lastScore c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) (fun h => h0 ((firstTile_iff t).mp h)) ((lastTile_iff t).mpr h1) (iblk m c 0 t) (iblk m c 1 t) (iblk m c 2 t) (iblk m c 3 t) (iblk m c 4 t) (iblk m c 5 t) (iblk m c 6 t) prev.enc prev.low
  encOut := prev.encOut
  enc := prev.enc
  low := lastLow c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) (fun h => h0 ((firstTile_iff t).mp h)) ((lastTile_iff t).mpr h1) (iblk m c 0 t) (iblk m c 1 t) (iblk m c 2 t) (iblk m c 3 t) (iblk m c 4 t) (iblk m c 5 t) (iblk m c 6 t) prev.enc prev.low

/-- THE ACCUMULATION: the contents after the body at position n, by recursion on n. -/
def heldAt (c : Dev nD) : (n : ℕ) → n < cfg0.N → Held F
  | 0, hn => firstAt m c ⟨0, hn⟩ (Nat.zero_mod _) (show ¬0 % 32 = 31 by decide)
  | n + 1, hn =>
    if h0 : (n + 1) % 32 = 0 then firstAt m c ⟨n + 1, hn⟩ h0 (show ¬(n + 1) % 32 = 31 by omega)
    else if h1 : (n + 1) % 32 = 31 then lastAt m c ⟨n + 1, hn⟩ h0 h1 (heldAt c n (Nat.lt_of_succ_lt hn))
    else midAt m c ⟨n + 1, hn⟩ h0 h1 (heldAt c n (Nat.lt_of_succ_lt hn))

theorem heldAt_first (c : Dev nD) (t : Fin cfg0.N) (h0 : t.val % 32 = 0) (h1 : ¬t.val % 32 = 31) :
    heldAt m c t.val t.isLt = firstAt m c t h0 h1 := by
  obtain ⟨n, hn⟩ := t
  cases n with
  | zero => rfl
  | succ n => exact (dif_pos h0).trans rfl

theorem heldAt_mid (c : Dev nD) (t : Fin cfg0.N) (h0 : ¬t.val % 32 = 0) (h1 : ¬t.val % 32 = 31) :
    heldAt m c t.val t.isLt = midAt m c t h0 h1 (heldAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem heldAt_last (c : Dev nD) (t : Fin cfg0.N) (h0 : ¬t.val % 32 = 0) (h1 : t.val % 32 = 31) :
    heldAt m c t.val t.isLt = lastAt m c t h0 h1 (heldAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- Away from a first memory tile the second output's buffer holds what the point before left. -/
theorem heldAt_encOut_carried (c : Dev nD) (t : Fin cfg0.N) (h0 : ¬t.val % 32 = 0) :
    (heldAt m c t.val t.isLt).encOut = (heldAt m c (t.val - 1) (Nat.lt_of_le_of_lt (Nat.sub_le _ _) t.isLt)).encOut := by
  by_cases h1 : t.val % 32 = 31
  · rw [heldAt_last m c t h0 h1]; rfl
  · rw [heldAt_mid m c t h0 h1]; rfl

/-! ## The region's invariant point by point -/

/-- Before position n: at the region's entry the two scratch buffers hold anything; afterwards the
    encoder block and the running minimum the point before left. -/
def heldInv (c : Dev nD) : (n : ℕ) → n ≤ cfg0.N → sProp 𝕄
  | 0, _ => Pipeline.ΦA spec0 c
  | n + 1, hn => iprop(iprop(owns (c : Thread nD τ) encBuf fullShare (heldAt m c n hn).enc ∗ owns (c : Thread nD τ) minBuf fullShare (heldAt m c n hn).low) ∗ (∃ r, prngReg c r))

theorem heldInv_zero (c : Dev nD) (n : ℕ) (h : n ≤ cfg0.N) (hz : n = 0) : heldInv m c n h = Pipeline.ΦA spec0 c := by
  subst hz; rfl

theorem heldInv_succ (c : Dev nD) (n : ℕ) (hn : n < cfg0.N) :
    heldInv m c (n + 1) hn = iprop(iprop(owns (c : Thread nD τ) encBuf fullShare (heldAt m c n hn).enc ∗ owns (c : Thread nD τ) minBuf fullShare (heldAt m c n hn).low) ∗ (∃ r, prngReg c r)) := rfl

theorem heldInv_pos (c : Dev nD) (n : ℕ) (h : n ≤ cfg0.N) (hz : n ≠ 0) :
    heldInv m c n h = iprop(iprop(owns (c : Thread nD τ) encBuf fullShare (heldAt m c (n - 1) (by omega)).enc ∗ owns (c : Thread nD τ) minBuf fullShare (heldAt m c (n - 1) (by omega)).low) ∗ (∃ r, prngReg c r)) := by
  cases n with
  | zero => exact absurd rfl hz
  | succ n => rfl

/-! ## The pipeline's proof data -/

/-- The arrays as the region finds them; after the body each input's buffer at its block, the outputs'
    at the accumulation's components; the invariant the one above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (heldAt m c t.val t.isLt).score
    | ⟨8, _⟩ => (heldAt m c t.val t.isLt).encOut
  Φ t := heldInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = heldInv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (heldAt m c t.val t.isLt).score := by dsimp only [dats]
theorem after8 (c : Dev nD) (t : Fin cfg0.N) : (dats m 0 c).after 8 t = (heldAt m c t.val t.isLt).encOut := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- Whether the second output's buffer holds nothing the body stored when the body runs at position n:
    exactly at the first memory tiles. -/
theorem fresh8 (n : ℕ) (hn : n ≤ cfg0.N) : cfg0.fresh 8 n = decide (n % 32 = 0) :=
  Pipeline.Cfg.fresh_tab cfg0 8 (fun n => decide (n % 32 = 0)) (by decide)
    (by decide +kernel : ∀ t : Fin grid0.N, decide ((t.val + 1) % 32 = 0)
      = ((cfg0.win 8).flush t || (cfg0.idle 8 (grid0.coords t) && decide (t.val % 32 = 0)))) n hn

/-- Away from a first memory tile the second output's current staging buffer holds, when the body is
    entered, what the accumulation says of the point before: the buffer was stored at the batch tile's
    first memory tile and neither written back nor stored into since. -/
theorem before8_carried (c : Dev nD) (t : Fin cfg0.N) (h0 : ¬t.val % 32 = 0) (d) :
    (dats m 0 c).before 8 t d = (heldAt m c (t.val - 1) (Nat.lt_of_le_of_lt (Nat.sub_le _ _) t.isLt)).encOut := by
  rw [Pipeline.Dat.before_out_traj (dats m 0 c) 8 rfl (fun _ _ => rfl)
    (fun s hs _ hfr => by
      have hs0 : ¬s.val % 32 = 0 := fun h => by
        rw [fresh8 s.val (Nat.le_of_lt s.isLt), decide_eq_false_iff_not] at hfr; exact hfr h
      rw [after8, after8]; exact heldAt_encOut_carried m c s hs0)
    t.val t rfl d,
    fresh8 t.val (Nat.le_of_lt t.isLt), if_neg (by simpa using h0), after8]

end Cert.KernelIdeal.Carry

end
-- ==== Proof.IdealBody.lean ====
/-
  The body obligation of the pipeline: at every point, from the invariant and every window's current
  staging buffer at what it then holds, the body runs to the invariant at the next point and every buffer
  at what the proof data says it leaves. By cases on the point's memory tile (first, middle, last), each
  case the corresponding run of the body. An output the case does not store into is handed back as it
  was found; at a batch tile's last memory tile the second output, written back there though not stored
  into, is found holding the encoder block the first memory tile stored, which is what the proof data
  says it leaves. Then the launch: the whole program runs, and every array ends at what the library
  computes from the proof data.
-/
import proofs.«101238_j55087250538839_1_alg».proof.Proof.IdealHeld

set_option maxRecDepth 16384

noncomputable section

namespace Cert.KernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = heldInv m c (t.val + 1) t.isLt from rfl, heldInv_succ]
  have hN : t.val < 128 := lt_of_lt_of_eq t.isLt (show cfg0.N = 128 from N_0)
  rw [show (dats m 0 c).leavesExact 0 t = owns (c : Thread nD τ) (mem0 t) fullShare ((dats m 0 c).after 0 t) from by
    unfold Dat.leavesExact; rw [live0 t], after0]
  rw [show (dats m 0 c).leavesExact 1 t = owns (c : Thread nD τ) (mem1 t) fullShare ((dats m 0 c).after 1 t) from by
    unfold Dat.leavesExact; rw [live1 t], after1]
  rw [show (dats m 0 c).leavesExact 2 t = owns (c : Thread nD τ) (mem2 t) fullShare ((dats m 0 c).after 2 t) from by
    unfold Dat.leavesExact; rw [live2 t], after2]
  rw [show (dats m 0 c).leavesExact 3 t = owns (c : Thread nD τ) (mem3 t) fullShare ((dats m 0 c).after 3 t) from by
    unfold Dat.leavesExact; rw [live3 t], after3]
  rw [show (dats m 0 c).leavesExact 4 t = owns (c : Thread nD τ) (mem4 t) fullShare ((dats m 0 c).after 4 t) from by
    unfold Dat.leavesExact; rw [live4 t], after4]
  rw [show (dats m 0 c).leavesExact 5 t = owns (c : Thread nD τ) (mem5 t) fullShare ((dats m 0 c).after 5 t) from by
    unfold Dat.leavesExact; rw [live5 t], after5]
  rw [show (dats m 0 c).leavesExact 6 t = owns (c : Thread nD τ) (mem6 t) fullShare ((dats m 0 c).after 6 t) from by
    unfold Dat.leavesExact; rw [live6 t], after6]
  by_cases h0 : t.val % 32 = 0
  · have h1 : ¬t.val % 32 = 31 := by omega
    rw [Dat.leavesExact_idle _ 7 t ((idle7_iff t).mpr h1) (Bool.eq_false_iff.mpr fun h => h1 ((flush0_7 t).mp h))]
    rw [show (dats m 0 c).leavesExact 8 t = owns (c : Thread nD τ) (mem8 t) fullShare ((dats m 0 c).after 8 t) from by
      unfold Dat.leavesExact; rw [Bool.eq_false_iff.mpr fun h => (idle8_iff t).mp h h0], after8]
    rw [heldAt_first m c t h0 h1]
    unfold firstAt firstOut firstEnc firstLow; dsimp only
    by_cases hz : t.val = 0
    · rw [inv_castSucc m c t, heldInv_zero m c _ _ hz, regionInv_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runFirst c (grid0.coords t) _ _ _ _ _ _ _ _ _ _ _ _ _ _ _ _ _ _ _ _ _ _ ((firstTile_iff t).mpr h0) (fun h => h1 ((lastTile_iff t).mp h)) (iblk m c 0 t) (iblk m c 1 t) (iblk m c 2 t) (iblk m c 3 t) (iblk m c 4 t) (iblk m c 5 t) (iblk m c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirst_enc c _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (coverFirst_low c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      unfold owns; iexists _; isplitr
      swap; · iexact H8
      ipureintro; exact View.read_writes_of_cover _ _ _ _ _ (coverFirst_out c _ _ _ _ _ _ _ _ _ _ _ _ _ _ _ _ _ _ _ _ _ _ _ _ _ _ _ _ _ _ _ _)
    · rw [inv_castSucc m c t, heldInv_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runFirst c (grid0.coords t) _ _ _ _ _ _ _ _ _ _ _ _ _ _ _ _ _ _ _ _ _ _ ((firstTile_iff t).mpr h0) (fun h => h1 ((lastTile_iff t).mp h)) (iblk m c 0 t) (iblk m c 1 t) (iblk m c 2 t) (iblk m c 3 t) (iblk m c 4 t) (iblk m c 5 t) (iblk m c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      isplitl [HS1]; · iexists _; iexact HS1
      iintro ⟨H0, H1, H2, H3, H4, H5, H6, H7, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirst_enc c _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (coverFirst_low c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      unfold owns; iexists _; isplitr
      swap; · iexact H8
      ipureintro; exact View.read_writes_of_cover _ _ _ _ _ (coverFirst_out c _ _ _ _ _ _ _ _ _ _ _ _ _ _ _ _ _ _ _ _ _ _ _ _ _ _ _ _ _ _ _ _)
  · by_cases h1 : t.val % 32 = 31
    · rw [show (dats m 0 c).leavesExact 7 t = owns (c : Thread nD τ) (mem7 t) fullShare ((dats m 0 c).after 7 t) from by
        unfold Dat.leavesExact; rw [Bool.eq_false_iff.mpr fun h => (idle7_iff t).mp h h1], after7]
      rw [show (dats m 0 c).leavesExact 8 t = owns (c : Thread nD τ) (mem8 t) fullShare ((dats m 0 c).after 8 t) from by
        unfold Dat.leavesExact; rw [(idle8_iff t).mpr h0, (flush0_8 t).mpr h1], after8]
      simp only [before8_carried m c t h0]
      rw [heldAt_last m c t h0 h1]
      unfold lastAt lastScore lastLow; dsimp only
      have hz : t.val ≠ 0 := fun h => h0 (by rw [h])
      rw [inv_castSucc m c t, heldInv_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast c (grid0.coords t) _ _ _ _ _ _ _ _ _ _ _ _ _ _ _ _ _ _ _ _ _ _ (fun h => h0 ((firstTile_iff t).mp h)) ((lastTile_iff t).mpr h1) (iblk m c 0 t) (iblk m c 1 t) (iblk m c 2 t) (iblk m c 3 t) (iblk m c 4 t) (iblk m c 5 t) (iblk m c 6 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      isplitl [HS1]; · iexact HS1
      iintro ⟨H0, H1, H2, H3, H4, H5, H6, ⟨%e7, H7⟩, H8, HS0, ⟨%es1, HS1⟩⟩
      isplitl [HS0 HS1 Hg]
      · isplitl [HS0 HS1]
        · isplitl [HS0]
          · iexact HS0
          unfold owns; iexists _; isplitr
          swap; · iexact HS1
          ipureintro; exact View.read_writes_of_cover _ _ _ _ _ (coverLast_low c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverLast_score c _ _ _ _ _ _ _ _ _ _ _ _ _ _ _ _ _ _ _ _ _ _ _ _ _ _ _ _ _ _ _ _ _ _)
      iexact H8
    · rw [Dat.leavesExact_idle _ 7 t ((idle7_iff t).mpr h1) (Bool.eq_false_iff.mpr fun h => h1 ((flush0_7 t).mp h))]
      rw [Dat.leavesExact_idle _ 8 t ((idle8_iff t).mpr h0) (Bool.eq_false_iff.mpr fun h => h1 ((flush0_8 t).mp h))]
      rw [heldAt_mid m c t h0 h1]
      unfold midAt midLow; dsimp only
      have hz : t.val ≠ 0 := fun h => h0 (by rw [h])
      rw [inv_castSucc m c t, heldInv_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runMid c (grid0.coords t) _ _ _ _ _ _ _ _ _ _ _ _ _ _ _ _ _ _ _ _ _ _ (fun h => h0 ((firstTile_iff t).mp h)) (fun h => h1 ((lastTile_iff t).mp h)) (iblk m c 0 t) (iblk m c 1 t) (iblk m c 2 t) (iblk m c 3 t) (iblk m c 4 t) (iblk m c 5 t) (iblk m c 6 t) _ _).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, ⟨%es1, HS1⟩⟩
      isplitl [HS0 HS1 Hg]
      · isplitl [HS0 HS1]
        · isplitl [HS0]
          · iexact HS0
          unfold owns; iexists _; isplitr
          swap; · iexact HS1
          ipureintro; exact View.read_writes_of_cover _ _ _ _ _ (coverMid_low c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = heldInv m c 0 (Nat.zero_le _) from rfl, heldInv_zero m c 0 _ rfl]
  try exact Idealize.SL.BI.Entails.refl _

/-- After the last point the invariant gives the scratch buffers back at some contents. -/
theorem inv_out (c : Dev nD) : (dats m 0 c).Φ (Fin.last cfg0.N) ⊢ Pipeline.ΦA spec0 c := by
  rw [show (dats m 0 c).Φ (Fin.last cfg0.N) = heldInv m c (Fin.last cfg0.N).val (Nat.le_of_lt_succ (Fin.last cfg0.N).isLt) from rfl,
    heldInv_pos m c _ _ (by rw [Fin.val_last]; have : cfg0.N = 128 := N_0; omega), regionInv_eq]
  iintro ⟨⟨HS0, HS1⟩, Hg⟩
  isplitl [HS0 HS1]
  · isplitl [HS0]
    · iexists _; iexact HS0
    iexists _; iexact HS1
  iexact Hg

set_option backward.isDefEq.respectTransparency.types false in
/-- From any memory with zero counters every weakly fair execution of the program terminates, and in
    every final state each array of the pipeline holds what the library computes from the proof data
    (an output: its blocks written back in point order) and every other buffer what the region found. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame: the program runs and leaves its six argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Carry

end
-- ==== Proof.IdealPieces.lean ====
/-
  What the three runs of the body found, as values: each buffer the body stores into ends holding the
  body's own arithmetic (the skeleton's payloads) of what it loaded. A buffer stored whole by one store
  reads back as that store's value; the running minimum at a first memory tile is stored twice (the reset
  to +inf, then the lowered value, which was computed from the reset value read back) and reads back as the
  second store's value.
-/
import proofs.«101238_j55087250538839_1_alg».proof.Proof.IdealHeld
import Idealize.ShloMosaic.Lib.Pipeline.Value

set_option maxRecDepth 16384

noncomputable section

namespace Cert.KernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a whole-block rectangle of a rank-2 buffer are all zero. -/
private theorem hz2 : (![0, 0] : Fin 2 → Nat) = fun _ => 0 := funext fun a => by fin_cases a <;> rfl

/-- The offset of a whole-block rectangle of a rank-1 buffer is zero. -/
private theorem hz1 : (![0] : Fin 1 → Nat) = fun _ => 0 := funext fun a => by fin_cases a; rfl

theorem firstOut_eq (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) :
    firstOut c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay1 x0 x1 x2 x3 x4 := by
  unfold firstOut
  rw [View.read_writes_junk_eq_canon]
  unfold runFirst
  dsimp only
  sl_unfold_words
  rw [View.canon_unit_zero (S := S1024x256) hz2]
  simp only [View.readAt_eq_ld, harg2.read_unread, harg3.read_unread, harg4.read_unread, harg5.read_unread, harg6.read_unread, harg7.read_unread, harg8.read_unread,
    View.ld_unit_zero (S := S1024x256) hz2, View.ld_unit_zero (S := S256x1024) hz2, View.ld_unit_zero (S := S1024) hz1, View.ld_unit_zero (S := S256) hz1,
    View.ld_unit_zero (S := S2048x256) hz2, View.ld_unit_zero (S := S1x2048) hz2, View.ld_unit_zero (S := S1024x1) hz2]

theorem firstEnc_eq (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) :
    firstEnc c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay2 x0 x1 x2 x3 x4 := by
  unfold firstEnc
  rw [View.read_writes_junk_eq_canon]
  unfold runFirst
  dsimp only
  sl_unfold_words
  rw [View.canon_unit_zero (S := S1024x256) hz2]
  simp only [View.readAt_eq_ld, harg2.read_unread, harg3.read_unread, harg4.read_unread, harg5.read_unread, harg6.read_unread, harg7.read_unread, harg8.read_unread,
    View.ld_unit_zero (S := S1024x256) hz2, View.ld_unit_zero (S := S256x1024) hz2, View.ld_unit_zero (S := S1024) hz1, View.ld_unit_zero (S := S256) hz1,
    View.ld_unit_zero (S := S2048x256) hz2, View.ld_unit_zero (S := S1x2048) hz2, View.ld_unit_zero (S := S1024x1) hz2]

theorem firstLow_eq (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) :
    firstLow c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay4 (k0_pay2 x0 x1 x2 x3 x4) x5 x6 (k0_pay3 (F := F)) := by
  unfold firstLow
  rw [View.read_writes_junk_eq_canon]
  unfold runFirst
  dsimp only
  sl_unfold_words
  rw [View.canon_cons_unit_zero (S := S1024x1) hz2]
  simp only [View.readCov_unit_zero (S := S1024x256) _ hz2, View.readCov_unit_zero (S := S1024x1) _ hz2,
    View.readAt_eq_ld, harg2.read_unread, harg3.read_unread, harg4.read_unread, harg5.read_unread, harg6.read_unread, harg7.read_unread, harg8.read_unread,
    View.ld_unit_zero (S := S1024x256) hz2, View.ld_unit_zero (S := S256x1024) hz2, View.ld_unit_zero (S := S1024) hz1, View.ld_unit_zero (S := S256) hz1,
    View.ld_unit_zero (S := S2048x256) hz2, View.ld_unit_zero (S := S1x2048) hz2, View.ld_unit_zero (S := S1024x1) hz2]

theorem midLow_eq (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : ¬lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) :
    midLow c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay4 xs0 x5 x6 xs1 := by
  unfold midLow
  rw [View.read_writes_junk_eq_canon]
  unfold runMid
  dsimp only
  sl_unfold_words
  rw [View.canon_unit_zero (S := S1024x1) hz2]
  simp only [View.readAt_eq_ld, harg2.read_unread, harg3.read_unread, harg4.read_unread, harg5.read_unread, harg6.read_unread, harg7.read_unread, harg8.read_unread, harg11.read_unread, harg12.read_unread,
    View.ld_unit_zero (S := S1024x256) hz2, View.ld_unit_zero (S := S256x1024) hz2, View.ld_unit_zero (S := S1024) hz1, View.ld_unit_zero (S := S256) hz1,
    View.ld_unit_zero (S := S2048x256) hz2, View.ld_unit_zero (S := S1x2048) hz2, View.ld_unit_zero (S := S1024x1) hz2]

theorem lastLow_eq (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) :
    lastLow c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay4 xs0 x5 x6 xs1 := by
  unfold lastLow
  rw [View.read_writes_junk_eq_canon]
  unfold runLast
  dsimp only
  sl_unfold_words
  rw [View.canon_unit_zero (S := S1024x1) hz2]
  simp only [View.readAt_eq_ld, harg2.read_unread, harg3.read_unread, harg4.read_unread, harg5.read_unread, harg6.read_unread, harg7.read_unread, harg8.read_unread, harg11.read_unread, harg12.read_unread,
    View.ld_unit_zero (S := S1024x256) hz2, View.ld_unit_zero (S := S256x1024) hz2, View.ld_unit_zero (S := S1024) hz1, View.ld_unit_zero (S := S256) hz1,
    View.ld_unit_zero (S := S2048x256) hz2, View.ld_unit_zero (S := S1x2048) hz2, View.ld_unit_zero (S := S1024x1) hz2]

theorem lastScore_eq (c : Dev nD) (i : grid0.Coords) (arg2 : Memref sig .tc .vmem S1024x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S1x2048 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x1 .f32) (harg12 : arg12.IsWhole) (hc0 : ¬firstTile i) (hc1 : lastTile i)
    (x0 : Vec F S1024x256 .f32) (x1 : Vec F S256x1024 .f32) (x2 : Vec F S1024 .f32) (x3 : Vec F S1024x256 .f32) (x4 : Vec F S256 .f32) (x5 : Vec F S2048x256 .f32) (x6 : Vec F S1x2048 .f32) (xs0 : Vec F S1024x256 .f32) (xs1 : Vec F S1024x1 .f32) :
    lastScore c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay5 (k0_pay4 xs0 x5 x6 xs1) := by
  unfold lastScore
  rw [View.read_writes_junk_eq_canon]
  unfold runLast
  dsimp only
  sl_unfold_words
  rw [View.canon_unit_zero (S := S1024x1) hz2]
  simp only [View.readCov_unit_zero (S := S1024x1) _ hz2,
    View.readAt_eq_ld, harg2.read_unread, harg3.read_unread, harg4.read_unread, harg5.read_unread, harg6.read_unread, harg7.read_unread, harg8.read_unread, harg11.read_unread, harg12.read_unread,
    View.ld_unit_zero (S := S1024x256) hz2, View.ld_unit_zero (S := S256x1024) hz2, View.ld_unit_zero (S := S1024) hz1, View.ld_unit_zero (S := S256) hz1,
    View.ld_unit_zero (S := S2048x256) hz2, View.ld_unit_zero (S := S1x2048) hz2, View.ld_unit_zero (S := S1024x1) hz2]

end Cert.KernelIdeal.Carry

end
-- ==== Proof.Spec.lean ====
/-
  The mathematics of the novelty score, on the extended reals, with no program in sight.
  A row x of the input is encoded as  enc_b = (Σ_k relu(Σ_j x_j·W1[j,k] + b1[k]) · W2[k,b]) + b2[b];
  its distance to a memory row y with squared norm n is  sqrt(max((Σ_b enc_b² + n) − 2·Σ_b enc_b·y_b, 0));
  its score is tanh of the least such distance over all 65536 memory rows, the least taken from +inf.
  The least distance is carried by its universal property: z is below it iff z is below +inf and below
  every distance. Float literals stay as their words: the same word stands on both sides of every equation
  below and is never evaluated.
-/
import Idealize.ShloMosaic.PureOps.Ideal
import Idealize.ShloMosaic.Lib.ValueIdx

noncomputable section

namespace Cert.Novelty

open Idealize.ShloMosaic Idealize.ShloMosaic.ValueIdx

/-- A matrix, and a vector, of extended reals over literal extents. -/
abbrev Mat (n0 n1 : ℕ) : Type := (⟨2, ![n0, n1]⟩ : Shape).Idx → EReal
abbrev Row (n : ℕ) : Type := (⟨1, ![n]⟩ : Shape).Idx → EReal

abbrev zeroLit : EReal := Ideal.ofBits .f32 0x00000000#32
abbrev twoLit : EReal := Ideal.ofBits .f32 0x40000000#32
abbrev infLit : EReal := Ideal.ofBits .f32 0x7F800000#32

/-- One hidden unit of one input row: relu(x·W1[:,k] + b1[k]). -/
def hid (x : Fin 256 → EReal) (W1 : Mat 256 1024) (b1 : Row 1024) (k : Fin 1024) : EReal :=
  max ((∑ j : Fin 256, x j * W1 (ix2 j k)) + b1 (ix1 k)) zeroLit

/-- One entry of one encoded row. -/
def encRow (x : Fin 256 → EReal) (W1 : Mat 256 1024) (b1 : Row 1024) (W2 : Mat 1024 256) (b2 : Row 256) (b : Fin 256) : EReal :=
  (∑ k : Fin 1024, hid x W1 b1 k * W2 (ix2 k b)) + b2 (ix1 b)

/-- The distance from an encoded row e to a memory row y whose squared norm is n. -/
def dist (e y : Fin 256 → EReal) (n : EReal) : EReal :=
  Ideal.sqrt (max (((∑ b : Fin 256, e b * e b) + n) - twoLit * ∑ b : Fin 256, e b * y b) zeroLit)

/-- z is below +inf and below the distance from e to each of the first n memory rows. -/
def Below (e : Fin 256 → EReal) (mem : Mat 65536 256) (m2 : Mat 1 65536) (n : ℕ) (z : EReal) : Prop :=
  z ≤ infLit ∧ ∀ r : Fin 65536, r.val < n → z ≤ dist e (fun b => mem (ix2 r b)) (m2 (ix2 (0 : Fin 1) r))

/-- The least distance from e to a memory row, taken from +inf. -/
def lowest (e : Fin 256 → EReal) (mem : Mat 65536 256) (m2 : Mat 1 65536) : EReal :=
  (Finset.univ : Finset (Fin 65536)).fold min infLit fun r => dist e (fun b => mem (ix2 r b)) (m2 (ix2 (0 : Fin 1) r))

theorem le_lowest_iff (e : Fin 256 → EReal) (mem : Mat 65536 256) (m2 : Mat 1 65536) (z : EReal) :
    z ≤ lowest e mem m2 ↔ Below e mem m2 65536 z := by
  unfold lowest Below
  rw [Finset.le_fold_min]
  exact and_congr_right fun _ => ⟨fun h r _ => h r (Finset.mem_univ r), fun h r _ => h r r.isLt⟩

/-- Two extended reals with the same lower bounds are equal. -/
theorem eq_of_below {a b : EReal} (h : ∀ z, z ≤ a ↔ z ≤ b) : a = b :=
  le_antisymm ((h a).mp le_rfl) ((h b).mpr le_rfl)

/-- The whole encoded array. -/
def encAll (x : Mat 4096 256) (W1 : Mat 256 1024) (b1 : Row 1024) (W2 : Mat 1024 256) (b2 : Row 256) : Mat 4096 256 :=
  fun i => encRow (fun j => x (ix2 (i 0) j)) W1 b1 W2 b2 (i 1)

/-- The whole score column. -/
def scoreAll (x : Mat 4096 256) (W1 : Mat 256 1024) (b1 : Row 1024) (W2 : Mat 1024 256) (b2 : Row 256)
    (mem : Mat 65536 256) (m2 : Mat 1 65536) : Mat 4096 1 :=
  fun i => Ideal.tanh (lowest (fun b => encRow (fun j => x (ix2 (i 0) j)) W1 b1 W2 b2 b) mem m2)

end Cert.Novelty

end
-- ==== Proof.PayloadAtIndex.lean ====
/-
  The body's arithmetic read at an index, on the extended reals. An entry of the encoder block is the
  encoding of the corresponding row of the input block; the reset value of the running minimum is +inf; the score is tanh of the running minimum.
-/
import proofs.«101238_j55087250538839_1_alg».proof.Proof.Spec
import proofs.«101238_j55087250538839_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.AtIndex

open Idealize.ShloMosaic Idealize.ShloMosaic.ValueIdx Idealize.ShloMosaic.TcCoe
open Cert.KernelIdeal Cert.KernelIdeal.Gen Cert.Novelty

/-! ## The two products of the encoder

Each product contracts the left block's second axis with the right block's first, and has no batch axis: at an output
entry (p, c) the left operand is read along row p and the right operand down column c. The four axis facts of each
product are kept apart and stated at the literal axes. -/

/-! The first product: a [1024,256] block of input rows times the [256,1024] first weight. -/

private theorem lhs_hid_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
private theorem lhs_hid_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
private theorem rhs_hid_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
private theorem rhs_hid_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- Into the zero accumulator, the product's entry (p, c) is the sum over the shared axis of the operands' products. -/
private theorem matmul_hid_apply {φ₁ φ₂ : FTy} (lhs : FVec Ideal S1024x256 φ₁) (rhs : FVec Ideal S256x1024 φ₂) (p : Fin 1024) (c : Fin 1024) :
    matmul dot_S1024x256_S256x1024_S1024x1024_1_0_0_1_n_n none lhs rhs (constant (F := Ideal) S1024x1024 .f32 0x00000000#32) (ix2 p c)
      = ∑ k : Fin 256, lhs (ix2 p k) * rhs (ix2 k c) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p c) ((ValueIdx.contrEquiv1 dot_S1024x256_S256x1024_S1024x1024_1_0_0_1_n_n 256 rfl rfl).symm k) = ix2 p k := funext fun a => Fin.ext (by
    match a with
    | ⟨0, _⟩ => exact lhs_hid_0 _ _
    | ⟨1, _⟩ => exact (lhs_hid_1 _ _).trans hk)
  have er : dot_S1024x256_S256x1024_S1024x1024_1_0_0_1_n_n.rhsIdx (ix2 p c) ((ValueIdx.contrEquiv1 dot_S1024x256_S256x1024_S1024x1024_1_0_0_1_n_n 256 rfl rfl).symm k) = ix2 k c := funext fun a => Fin.ext (by
    match a with
    | ⟨0, _⟩ => exact (rhs_hid_0 _ _).trans hk
    | ⟨1, _⟩ => exact rhs_hid_1 _ _)
  rw [el, er]

/-! The second product: the [1024,1024] block of hidden units times the [1024,256] second weight. -/

private theorem lhs_enc_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
private theorem lhs_enc_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
private theorem rhs_enc_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
private theorem rhs_enc_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- Into the zero accumulator, the product's entry (p, c) is the sum over the shared axis of the operands' products. -/
private theorem matmul_enc_apply {φ₁ φ₂ : FTy} (lhs : FVec Ideal S1024x1024 φ₁) (rhs : FVec Ideal S1024x256 φ₂) (p : Fin 1024) (c : Fin 256) :
    matmul dot_S1024x1024_S1024x256_S1024x256_1_0_0_1_n_n none lhs rhs (constant (F := Ideal) S1024x256 .f32 0x00000000#32) (ix2 p c)
      = ∑ k : Fin 1024, lhs (ix2 p k) * rhs (ix2 k c) := by
  simp only [matmul]
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 p c) ((ValueIdx.contrEquiv1 dot_S1024x1024_S1024x256_S1024x256_1_0_0_1_n_n 1024 rfl rfl).symm k) = ix2 p k := funext fun a => Fin.ext (by
    match a with
    | ⟨0, _⟩ => exact lhs_enc_0 _ _
    | ⟨1, _⟩ => exact (lhs_enc_1 _ _).trans hk)
  have er : dot_S1024x1024_S1024x256_S1024x256_1_0_0_1_n_n.rhsIdx (ix2 p c) ((ValueIdx.contrEquiv1 dot_S1024x1024_S1024x256_S1024x256_1_0_0_1_n_n 1024 rfl rfl).symm k) = ix2 k c := funext fun a => Fin.ext (by
    match a with
    | ⟨0, _⟩ => exact (rhs_enc_0 _ _).trans hk
    | ⟨1, _⟩ => exact rhs_enc_1 _ _)
  rw [el, er]

/-! ## The payloads at an index -/

/-- Entry (p, b) of the encoder block: the bias b2[b] added to the sum over the hidden units k of relu(Σ_j x[p,j]·W1[j,k] + b1[k])·W2[k,b].
    Narrowing to the shorter float format is the identity on the extended reals, each bias row is read at its column
    whatever the row, and the relu's zero stays the word it is on both sides. -/
theorem pay1_apply (x0 : Vec Ideal S1024x256 .f32) (x1 : Vec Ideal S256x1024 .f32) (x2 : Vec Ideal S1024 .f32)
    (x3 : Vec Ideal S1024x256 .f32) (x4 : Vec Ideal S256 .f32) (p : Fin 1024) (b : Fin 256) :
    k0_pay1 (F := Ideal) x0 x1 x2 x3 x4 (ix2 p b) = encRow (fun j => x0 (ix2 p j)) x1 x2 x3 x4 b := by
  unfold k0_pay1
  rw [addf_apply, matmul_enc_apply, broadcastTo_1b_ab_apply, shapeCast_a_1a_apply]
  unfold encRow
  refine congrArg (· + x4 (ix1 b)) (Finset.sum_congr rfl fun k _ => ?_)
  rw [truncf_apply, truncf_apply, maximumf_apply, addf_apply, matmul_hid_apply, broadcastTo_1b_ab_apply,
    shapeCast_a_1a_apply, broadcast_apply]
  unfold hid
  simp only [truncf_apply]
  rfl

/-- The second copy of the encoder block is the first through a cast between equal shapes, which changes nothing. -/
theorem pay2_apply (x0 : Vec Ideal S1024x256 .f32) (x1 : Vec Ideal S256x1024 .f32) (x2 : Vec Ideal S1024 .f32)
    (x3 : Vec Ideal S1024x256 .f32) (x4 : Vec Ideal S256 .f32) (p : Fin 1024) (b : Fin 256) :
    k0_pay2 (F := Ideal) x0 x1 x2 x3 x4 (ix2 p b) = encRow (fun j => x0 (ix2 p j)) x1 x2 x3 x4 b := by
  unfold k0_pay2
  rw [shapeCast_self]
  exact pay1_apply x0 x1 x2 x3 x4 p b

/-- The reset column of the running minimum holds the word of +inf in every row. -/
theorem pay3_apply (p : Fin 1024) : k0_pay3 (F := Ideal) (ix2 p (0 : Fin 1)) = infLit := by
  unfold k0_pay3
  rw [shapeCast_self]
  rfl

/-- The score column is tanh of the running minimum, row by row. -/
theorem pay5_apply (v : Vec Ideal S1024x1 .f32) (p : Fin 1024) :
    k0_pay5 (F := Ideal) v (ix2 p (0 : Fin 1)) = Ideal.tanh (v (ix2 p (0 : Fin 1))) := by
  unfold k0_pay5
  rfl

end Cert.KernelIdeal.AtIndex

end
-- ==== Proof.LowerAtIndex.lean ====
/-
  The lowered running minimum read at a row, on the extended reals: it is the least of the previous
  minimum, +inf, and the distances from that row of the encoder block to the tile's 2048 memory rows.
  Stated by its lower bounds: z is below it iff z is below each of those.
-/
import proofs.«101238_j55087250538839_1_alg».proof.Proof.Spec
import proofs.«101238_j55087250538839_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.AtIndex

open Idealize.ShloMosaic Idealize.ShloMosaic.ValueIdx Idealize.ShloMosaic.TcCoe
open Cert.KernelIdeal Cert.KernelIdeal.Gen Cert.Novelty

section Layout
variable {α : Type}

/-- A vector `[a]` cast to the column `[a, 1]` reads, at `(i, u)`, the vector at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A float `vector.multi_reduction <minimumf>` over one axis, read on the extended reals: the fold of `min` from the
    accumulator's value over that axis's coordinates. -/
private theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The row minimum of a `[1024, 2048]` block from `+inf`, at row `p`: the fold of `min` over the row's 2048 entries. -/
private theorem rowMin_apply (src : FVec Ideal S1024x2048 .f32) (h : S1024x2048.Reduces [1] S1024) (hφ : FKind.Formats .f32)
    (hacc : (0x7F800000#32 : BitVec 32) = 0x7F800000#32) (p : Fin 1024) :
    multiReduction .minimumf [1] S1024 src 0x7F800000#32 h hφ hacc (ix1 p)
      = (Finset.univ : Finset (Fin 2048)).fold min infLit (fun q => src (ix2 p q)) := by
  refine (multiReduction_minimumf_single src 0x7F800000#32 h hφ hacc (ix1 p)).trans ?_
  show (Finset.univ : Finset (Fin 2048)).fold min infLit (fun q => src (h.lift (ix1 p) q)) = _
  refine congrArg (fun f => (Finset.univ : Finset (Fin 2048)).fold min infLit f) (funext fun q => congrArg src ?_)
  funext a
  match a with
  | ⟨0, _⟩ => rfl
  | ⟨1, _⟩ => rfl

/-- The row sum of a `[1024, 256]` block from zero, at row `p`: the sum of the row's 256 entries. -/
private theorem rowSum_apply (src : FVec Ideal S1024x256 .f32) (h : S1024x256.Reduces [1] S1024) (hφ : FKind.Formats .f32)
    (hacc : (0x00000000#32 : BitVec 32) = 0x00000000#32) (p : Fin 1024) :
    multiReduction .add [1] S1024 src 0x00000000#32 h hφ hacc (ix1 p) = ∑ k : Fin 256, src (ix2 p k) := by
  refine (Ideal.multiReduction_add_single src 0x00000000#32 h hφ hacc (ix1 p)).trans ?_
  show ∑ k : Fin 256, src (h.lift (ix1 p) k) = _
  refine Finset.sum_congr rfl fun k _ => congrArg src ?_
  funext a
  match a with
  | ⟨0, _⟩ => rfl
  | ⟨1, _⟩ => rfl

/-! The NT product of the encoder block against the memory tile: both operands are contracted on their axis 1, so the
    left operand is read at (row of the output, k) and the right at (column of the output, k). -/

private theorem lhs_pay4_0 (i : S1024x2048.Idx) (q : dot_S1024x256_S2048x256_S1024x2048_1_1_0_0_n_n.contr.Idx) :
    (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide),
    dif_pos (show (0 : Fin S1024x256.rank) ∈ dot_S1024x256_S2048x256_S1024x2048_1_1_0_0_n_n.lhsNonContracting by decide)]
  rfl
private theorem lhs_pay4_1 (i : S1024x2048.Idx) (q : dot_S1024x256_S2048x256_S1024x2048_1_1_0_0_n_n.contr.Idx) :
    (dot_S1024x256_S2048x256_S1024x2048_1_1_0_0_n_n.lhsIdx i q 1).val = (q ⟨0, by decide⟩).val :=
  dot_S1024x256_S2048x256_S1024x2048_1_1_0_0_n_n.lhsIdx_val_of_single rfl i q
private theorem rhs_pay4_0 (i : S1024x2048.Idx) (q : dot_S1024x256_S2048x256_S1024x2048_1_1_0_0_n_n.contr.Idx) :
    (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide),
    dif_pos (show (0 : Fin S2048x256.rank) ∈ dot_S1024x256_S2048x256_S1024x2048_1_1_0_0_n_n.rhsNonContracting by decide)]
  rfl
private theorem rhs_pay4_1 (i : S1024x2048.Idx) (q : dot_S1024x256_S2048x256_S1024x2048_1_1_0_0_n_n.contr.Idx) :
    (dot_S1024x256_S2048x256_S1024x2048_1_1_0_0_n_n.rhsIdx i q 1).val = (q ⟨0, by decide⟩).val :=
  dot_S1024x256_S2048x256_S1024x2048_1_1_0_0_n_n.rhsIdx_val_of_single rfl i q

/-- The product into the zero splat, at `(p, q)`: the sum over `b` of row `p` of the left times row `q` of the right. -/
private theorem matmul_nt_apply {φ₁ φ₂ : FTy} (x : FVec Ideal S1024x256 φ₁) (y : FVec Ideal S2048x256 φ₂) (p : Fin 1024) (q : Fin 2048) :
    matmul dot_S1024x256_S2048x256_S1024x2048_1_1_0_0_n_n none x y (constant S1024x2048 .f32 0x00000000#32) (ix2 p q)
      = ∑ b : Fin 256, x (ix2 p b) * y (ix2 q b) := by
  show FloatOps.matmul dot_S1024x256_S2048x256_S1024x2048_1_1_0_0_n_n none x y (constant S1024x2048 .f32 0x00000000#32) (ix2 p q) = _
  rw [Ideal.matmul_constant_zero_apply,
    ← Equiv.sum_comp (contrEquiv1 dot_S1024x256_S2048x256_S1024x2048_1_1_0_0_n_n 256 rfl rfl).symm]
  refine Finset.sum_congr rfl fun k _ => ?_
  have hk := contrEquiv1_symm_val dot_S1024x256_S2048x256_S1024x2048_1_1_0_0_n_n 256 rfl rfl k
  have el : dot_S1024x256_S2048x256_S1024x2048_1_1_0_0_n_n.lhsIdx (ix2 p q)
      ((contrEquiv1 dot_S1024x256_S2048x256_S1024x2048_1_1_0_0_n_n 256 rfl rfl).symm k) = ix2 p k :=
    funext fun a => Fin.ext (by
      match a with
      | ⟨0, _⟩ => exact lhs_pay4_0 _ _
      | ⟨1, _⟩ => exact (lhs_pay4_1 _ _).trans hk)
  have er : dot_S1024x256_S2048x256_S1024x2048_1_1_0_0_n_n.rhsIdx (ix2 p q)
      ((contrEquiv1 dot_S1024x256_S2048x256_S1024x2048_1_1_0_0_n_n 256 rfl rfl).symm k) = ix2 q k :=
    funext fun a => Fin.ext (by
      match a with
      | ⟨0, _⟩ => exact rhs_pay4_0 _ _
      | ⟨1, _⟩ => exact (rhs_pay4_1 _ _).trans hk)
  rw [el, er]

/-- One entry of the distance block: at `(p, q)` the lowered expression is the distance from row `p` of the encoder block
    to row `q` of the memory tile. -/
private theorem distBlock_apply (v3 : Vec Ideal S1024x256 .f32) (v4 : Vec Ideal S2048x256 .f32) (v11 : Vec Ideal S1x2048 .f32)
    (hφ : FKind.Formats .f32) (hacc : (0x00000000#32 : BitVec 32) = 0x00000000#32) (p : Fin 1024) (q : Fin 2048) :
    sqrt
        (maximumf
          (subf
            (addf
              (broadcastTo S1024x2048
                (shapeCast S1024x1
                  (multiReduction (F := Ideal) .add [1] S1024 (mulf (F := Ideal) v3 v3) 0x00000000#32 reduces_S1024x256_S1024 hφ hacc)
                  shapeCasts_S1024_S1024x1)
                broadcasts_S1024x1_S1024x2048)
              (broadcastTo S1024x2048 (shapeCast S1x2048 v11 shapeCasts_S1x2048_S1x2048) broadcasts_S1x2048_S1024x2048))
            (mulf (broadcast S1024x2048 (Scalar.ofBits (F := Ideal) .f32 0x40000000#32))
              (matmul dot_S1024x256_S2048x256_S1024x2048_1_1_0_0_n_n none (truncf (F := Ideal) .bf16 v3 bitsLt_bf16_f32)
                (truncf (F := Ideal) .bf16 v4 bitsLt_bf16_f32) (constant S1024x2048 .f32 0x00000000#32))))
          (broadcast S1024x2048 (Scalar.ofBits (F := Ideal) .f32 0x00000000#32))) (ix2 p q)
      = dist (fun b => v3 (ix2 p b)) (fun b => v4 (ix2 q b)) (v11 (ix2 (0 : Fin 1) q)) := by
  have h1 : broadcastTo S1024x2048
      (shapeCast S1024x1
        (multiReduction (F := Ideal) .add [1] S1024 (mulf (F := Ideal) v3 v3) 0x00000000#32 reduces_S1024x256_S1024 hφ hacc)
        shapeCasts_S1024_S1024x1)
      broadcasts_S1024x1_S1024x2048 (ix2 p q) = (∑ b : Fin 256, (v3 (ix2 p b) : EReal) * (v3 (ix2 p b) : EReal) : EReal) :=
    (broadcastTo_a1_ab_apply _ broadcasts_S1024x1_S1024x2048 p q).trans
      ((shapeCast_a_a1_apply _ shapeCasts_S1024_S1024x1 p 0).trans
        ((rowSum_apply (mulf (F := Ideal) v3 v3) reduces_S1024x256_S1024 hφ hacc p).trans (Finset.sum_congr rfl fun b _ => rfl)))
  have h2 : broadcastTo S1024x2048 (shapeCast S1x2048 v11 shapeCasts_S1x2048_S1x2048) broadcasts_S1x2048_S1024x2048 (ix2 p q)
      = (v11 (ix2 (0 : Fin 1) q) : EReal) :=
    (broadcastTo_1b_ab_apply _ broadcasts_S1x2048_S1024x2048 p q).trans
      (congrFun (shapeCast_self v11 shapeCasts_S1x2048_S1x2048) _)
  have h3 : matmul dot_S1024x256_S2048x256_S1024x2048_1_1_0_0_n_n none (truncf (F := Ideal) .bf16 v3 bitsLt_bf16_f32)
      (truncf (F := Ideal) .bf16 v4 bitsLt_bf16_f32) (constant S1024x2048 .f32 0x00000000#32) (ix2 p q)
      = (∑ b : Fin 256, (v3 (ix2 p b) : EReal) * (v4 (ix2 q b) : EReal) : EReal) :=
    matmul_nt_apply (truncf (F := Ideal) .bf16 v3 bitsLt_bf16_f32) (truncf (F := Ideal) .bf16 v4 bitsLt_bf16_f32) p q
  show Ideal.sqrt (max ((_ + _) - (twoLit * _)) zeroLit) = _
  rw [h1, h2, h3]
  rfl

/-- The lowered running minimum at row `p`: the least of the previous minimum there and the row minimum, from `+inf`, of
    the distances to the tile's 2048 memory rows. -/
private theorem pay4_apply (v3 : Vec Ideal S1024x256 .f32) (v4 : Vec Ideal S2048x256 .f32) (v11 : Vec Ideal S1x2048 .f32)
    (v24 : Vec Ideal S1024x1 .f32) (p : Fin 1024) :
    k0_pay4 (F := Ideal) v3 v4 v11 v24 (ix2 p (0 : Fin 1))
      = min (v24 (ix2 p (0 : Fin 1)))
          ((Finset.univ : Finset (Fin 2048)).fold min infLit fun q =>
            dist (fun b => v3 (ix2 p b)) (fun b => v4 (ix2 q b)) (v11 (ix2 (0 : Fin 1) q))) := by
  unfold k0_pay4
  dsimp only
  refine (congrFun (shapeCast_self _ shapeCasts_S1024x1_S1024x1) _).trans ?_
  show min (v24 (ix2 p (0 : Fin 1))) (shapeCast S1024x1 _ shapeCasts_S1024_S1024x1 (ix2 p (0 : Fin 1))) = _
  refine congrArg (min _) ?_
  refine (shapeCast_a_a1_apply _ shapeCasts_S1024_S1024x1 p 0).trans ?_
  refine (rowMin_apply _ reduces_S1024x2048_S1024 _ _ p).trans ?_
  refine congrArg (fun f => (Finset.univ : Finset (Fin 2048)).fold min infLit f) (funext fun q => ?_)
  exact distBlock_apply v3 v4 v11 _ _ p q

theorem le_pay4_iff (v3 : Vec Ideal S1024x256 .f32) (v4 : Vec Ideal S2048x256 .f32) (v11 : Vec Ideal S1x2048 .f32)
    (v24 : Vec Ideal S1024x1 .f32) (p : Fin 1024) (z : EReal) :
    z ≤ k0_pay4 (F := Ideal) v3 v4 v11 v24 (ix2 p (0 : Fin 1)) ↔
      z ≤ v24 (ix2 p (0 : Fin 1)) ∧ z ≤ infLit ∧
        ∀ q : Fin 2048, z ≤ dist (fun b => v3 (ix2 p b)) (fun b => v4 (ix2 q b)) (v11 (ix2 (0 : Fin 1) q)) := by
  rw [pay4_apply, le_min_iff, Finset.le_fold_min]
  exact and_congr_right fun _ => and_congr_right fun _ =>
    ⟨fun h q => h q (Finset.mem_univ q), fun h q _ => h q⟩

end Cert.KernelIdeal.AtIndex

end
-- ==== Proof.SpecTiles.lean ====
/-
  The lower bounds of the least distance, one memory tile at a time: the memory rows come in 32 tiles of
  2048, and z is below the distances to the first j+1 tiles iff it is below those to the first j tiles
  and to each row of tile j.
-/
import proofs.«101238_j55087250538839_1_alg».proof.Proof.Spec

noncomputable section

namespace Cert.Novelty

open Idealize.ShloMosaic Idealize.ShloMosaic.ValueIdx

/-- Row q of memory tile j. -/
def tileRow (j : ℕ) (hj : j < 32) (q : Fin 2048) : Fin 65536 := ⟨2048 * j + q.val, by have := q.isLt; omega⟩

theorem below_zero (e : Fin 256 → EReal) (mem : Mat 65536 256) (m2 : Mat 1 65536) (z : EReal) :
    Below e mem m2 0 z ↔ z ≤ infLit :=
  ⟨fun h => h.1, fun h => ⟨h, fun r hr => absurd hr (Nat.not_lt_zero _)⟩⟩

theorem below_step (e : Fin 256 → EReal) (mem : Mat 65536 256) (m2 : Mat 1 65536) (j : ℕ) (hj : j < 32) (z : EReal) :
    Below e mem m2 (2048 * (j + 1)) z ↔
      Below e mem m2 (2048 * j) z ∧ z ≤ infLit ∧
        ∀ q : Fin 2048, z ≤ dist e (fun b => mem (ix2 (tileRow j hj q) b)) (m2 (ix2 (0 : Fin 1) (tileRow j hj q))) := by
  constructor
  · intro h
    refine ⟨⟨h.1, fun r hr => h.2 r (by omega)⟩, h.1, fun q => h.2 (tileRow j hj q) ?_⟩
    have := q.isLt; show 2048 * j + q.val < 2048 * (j + 1); omega
  · rintro ⟨h, -, hq⟩
    refine ⟨h.1, fun r hr => ?_⟩
    by_cases hlt : r.val < 2048 * j
    · exact h.2 r hlt
    · have hr' : r = tileRow j hj ⟨r.val - 2048 * j, by omega⟩ := Fin.ext (by show r.val = 2048 * j + (r.val - 2048 * j); omega)
      rw [hr']; exact hq _

end Cert.Novelty

end
-- ==== Proof.IdealBlocks.lean ====
/-
  The windows of the pipeline as index arithmetic. Point t is memory tile t % 32 of batch tile t / 32.
  The input block is rows 1024·(t/32) .. of the input, the memory block rows 2048·(t%32) .. of the memory,
  the squared-norm block columns 2048·(t%32) .. of the squared-norm row; the weights and biases are staged
  whole; both outputs' blocks are rows 1024·(t/32) .. of their arrays, and the four blocks written back at
  the last memory tiles cover them.
-/
import proofs.«101238_j55087250538839_1_alg».proof.Proof.Gen.KernelIdeal.Frame
import proofs.«101238_j55087250538839_1_alg».proof.Proof.SpecTiles
import Idealize.ShloMosaic.Lib.Pipeline.Value

set_option maxRecDepth 16384

noncomputable section

namespace Cert.KernelIdeal.Carry

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Novelty

variable (m : (ℓ : Loc nD τ sig) → Buf (Elt Ideal) ℓ) (ρ : Dev nD → PrngReg)

/-! ## The arrays as the region finds them -/

abbrev xArr (c : Dev nD) : Vec Ideal S4096x256 .f32 := V m c main_arg0
abbrev w1Arr (c : Dev nD) : Vec Ideal S256x1024 .f32 := V m c main_arg1
abbrev b1Arr (c : Dev nD) : Vec Ideal S1024 .f32 := V m c main_arg2
abbrev w2Arr (c : Dev nD) : Vec Ideal S1024x256 .f32 := V m c main_arg3
abbrev b2Arr (c : Dev nD) : Vec Ideal S256 .f32 := V m c main_arg4
abbrev memArr (c : Dev nD) : Vec Ideal S65536x256 .f32 := V m c main_arg5
abbrev m2Arr (c : Dev nD) : Vec Ideal S1x65536 .f32 := V m c main_v2

/-! ## The grid -/

theorem point_lt (t : Fin cfg0.N) : t.val < 128 := lt_of_lt_of_eq t.isLt (show cfg0.N = 128 from N_0)

/-- Row p of the batch tile of point t, as a row of the whole arrays. -/
def rowOf (t : Fin cfg0.N) (p : Fin 1024) : Fin 4096 :=
  ⟨1024 * (t.val / 32) + p.val, by have := point_lt t; have := p.isLt; omega⟩

theorem tile_lt (t : Fin cfg0.N) : t.val % 32 < 32 := Nat.mod_lt _ (by decide)

/-- The printed index maps, decided over the grid. -/
theorem idx_facts : ∀ t : Fin cfg0.N,
    win0_0.index t (0 : Fin 2) = t.val / 32 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val % 32 ∧ win0_5.index t (1 : Fin 2) = 0
    ∧ win0_6.index t (0 : Fin 2) = 0 ∧ win0_6.index t (1 : Fin 2) = t.val % 32
    ∧ win0_7.index t (0 : Fin 2) = t.val / 32 ∧ win0_7.index t (1 : Fin 2) = 0
    ∧ win0_8.index t (0 : Fin 2) = t.val / 32 ∧ win0_8.index t (1 : Fin 2) = 0 :=
  (by decide +kernel : ∀ t : Fin grid0.N, _)

/-! ## The input blocks -/

theorem blk0_apply (c : Dev nD) (t : Fin cfg0.N) (p : Fin 1024) (j : Fin 256) :
    iblk m c 0 t (ix2 p j) = xArr m c (ix2 (rowOf t p) j) := by
  obtain ⟨e0, e1, -⟩ := idx_facts t
  show V m c main_arg0 (((cfg0.win 0).blk t).view.emb (ix2 p j)) = V m c main_arg0 (ix2 (rowOf t p) j)
  refine congrArg (V m c main_arg0) (funext fun a => Fin.ext ?_)
  match a with
  | ⟨0, _⟩ => show win0_0.index t (0 : Fin 2) * 1024 + 1 * p.val = 1024 * (t.val / 32) + p.val; omega
  | ⟨1, _⟩ => show win0_0.index t (1 : Fin 2) * 256 + 1 * j.val = j.val; omega

theorem blk1_eq (c : Dev nD) (t : Fin cfg0.N) : iblk m c 1 t = w1Arr m c := by
  obtain ⟨-, -, e0, e1, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 256 + 1 * (y 0).val = (y 0).val; omega
  | ⟨1, _⟩ => show win0_1.index t (1 : Fin 2) * 1024 + 1 * (y 1).val = (y 1).val; omega

theorem blk2_eq (c : Dev nD) (t : Fin cfg0.N) : iblk m c 2 t = b1Arr m c := by
  obtain ⟨-, -, -, -, e0, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 1) * 1024 + 1 * (y 0).val = (y 0).val; omega

theorem blk3_eq (c : Dev nD) (t : Fin cfg0.N) : iblk m c 3 t = w2Arr m c := by
  obtain ⟨-, -, -, -, -, e0, e1, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 1024 + 1 * (y 0).val = (y 0).val; omega
  | ⟨1, _⟩ => show win0_3.index t (1 : Fin 2) * 256 + 1 * (y 1).val = (y 1).val; omega

theorem blk4_eq (c : Dev nD) (t : Fin cfg0.N) : iblk m c 4 t = b2Arr m c := by
  obtain ⟨-, -, -, -, -, -, -, e0, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 1) * 256 + 1 * (y 0).val = (y 0).val; omega

theorem blk5_apply (c : Dev nD) (t : Fin cfg0.N) (q : Fin 2048) (b : Fin 256) :
    iblk m c 5 t (ix2 q b) = memArr m c (ix2 (tileRow (t.val % 32) (tile_lt t) q) b) := by
  obtain ⟨-, -, -, -, -, -, -, -, e0, e1, -⟩ := idx_facts t
  show V m c main_arg5 (((cfg0.win 5).blk t).view.emb (ix2 q b)) = V m c main_arg5 (ix2 (tileRow (t.val % 32) (tile_lt t) q) b)
  refine congrArg (V m c main_arg5) (funext fun a => Fin.ext ?_)
  match a with
  | ⟨0, _⟩ => show win0_5.index t (0 : Fin 2) * 2048 + 1 * q.val = 2048 * (t.val % 32) + q.val; omega
  | ⟨1, _⟩ => show win0_5.index t (1 : Fin 2) * 256 + 1 * b.val = b.val; omega

theorem blk6_apply (c : Dev nD) (t : Fin cfg0.N) (q : Fin 2048) :
    iblk m c 6 t (ix2 (0 : Fin 1) q) = m2Arr m c (ix2 (0 : Fin 1) (tileRow (t.val % 32) (tile_lt t) q)) := by
  obtain ⟨-, -, -, -, -, -, -, -, -, -, e0, e1, -⟩ := idx_facts t
  show V m c main_v2 (((cfg0.win 6).blk t).view.emb (ix2 (0 : Fin 1) q)) = V m c main_v2 (ix2 (0 : Fin 1) (tileRow (t.val % 32) (tile_lt t) q))
  refine congrArg (V m c main_v2) (funext fun a => Fin.ext ?_)
  match a with
  | ⟨0, _⟩ => show win0_6.index t (0 : Fin 2) * 1 + 1 * (0 : Fin 1).val = (0 : Fin 1).val; omega
  | ⟨1, _⟩ => show win0_6.index t (1 : Fin 2) * 2048 + 1 * q.val = 2048 * (t.val % 32) + q.val; omega

/-! ## The output blocks -/

theorem emb7 (t : Fin cfg0.N) (p : Fin 1024) :
    ((cfg0.win 7).blk t).view.emb (ix2 p (0 : Fin 1)) = ix2 (rowOf t p) (0 : Fin 1) := by
  obtain ⟨-, -, -, -, -, -, -, -, -, -, -, -, e0, e1, -⟩ := idx_facts t
  refine funext fun a => Fin.ext ?_
  match a with
  | ⟨0, _⟩ => show win0_7.index t (0 : Fin 2) * 1024 + 1 * p.val = 1024 * (t.val / 32) + p.val; omega
  | ⟨1, _⟩ => show win0_7.index t (1 : Fin 2) * 1 + 1 * (0 : Fin 1).val = (0 : Fin 1).val; omega

theorem emb8 (t : Fin cfg0.N) (p : Fin 1024) (b : Fin 256) :
    ((cfg0.win 8).blk t).view.emb (ix2 p b) = ix2 (rowOf t p) b := by
  obtain ⟨-, -, -, -, -, -, -, -, -, -, -, -, -, -, e0, e1⟩ := idx_facts t
  refine funext fun a => Fin.ext ?_
  match a with
  | ⟨0, _⟩ => show win0_8.index t (0 : Fin 2) * 1024 + 1 * p.val = 1024 * (t.val / 32) + p.val; omega
  | ⟨1, _⟩ => show win0_8.index t (1 : Fin 2) * 256 + 1 * b.val = b.val; omega

/-- The last memory tile of the batch tile that holds row a. -/
def lastPointOf (a : Fin 4096) : Fin cfg0.N :=
  ⟨32 * (a.val / 1024) + 31, by have := a.isLt; show 32 * (a.val / 1024) + 31 < cfg0.N; rw [show cfg0.N = 128 from N_0]; omega⟩

theorem lastPointOf_mod (a : Fin 4096) : (lastPointOf a).val % 32 = 31 := by
  show (32 * (a.val / 1024) + 31) % 32 = 31; omega

theorem mem_blk7 (t : Fin cfg0.N) (i : S4096x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v3_0).slice (win0_7.rect t)).set ↔ _
  rw [View.set_slice_whole, Rect.mem_set_unit]
  exact Iff.rfl

theorem mem_blk8 (t : Fin cfg0.N) (i : S4096x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v3_1).slice (win0_8.rect t)).set ↔ _
  rw [View.set_slice_whole, Rect.mem_set_unit]
  exact Iff.rfl

/-- Every index of the score column lies in a block written back at a last memory tile. -/
theorem cover7 (i : S4096x1.Idx) : ∃ t : Fin cfg0.N, (cfg0.win 7).flush t = true ∧ i ∈ ((cfg0.win 7).blk t).view.set := by
  refine ⟨lastPointOf (i 0), (flush0_7 _).mpr (lastPointOf_mod _), ?_⟩
  rw [mem_blk7]
  obtain ⟨-, -, -, -, -, -, -, -, -, -, -, -, e0, e1, -⟩ := idx_facts (lastPointOf (i 0))
  have hv : (lastPointOf (i 0)).val = 32 * ((i 0).val / 1024) + 31 := rfl
  have h0 := (i 0).isLt
  have h1 : (i 1).val < 1 := (i 1).isLt
  intro a
  match a with
  | ⟨0, _⟩ => show win0_7.index (lastPointOf (i 0)) (0 : Fin 2) * 1024 ≤ (i 0).val ∧ (i 0).val < win0_7.index (lastPointOf (i 0)) (0 : Fin 2) * 1024 + 1024; omega
  | ⟨1, _⟩ => show win0_7.index (lastPointOf (i 0)) (1 : Fin 2) * 1 ≤ (i 1).val ∧ (i 1).val < win0_7.index (lastPointOf (i 0)) (1 : Fin 2) * 1 + 1; omega

/-- Every index of the encoded array lies in a block written back at a last memory tile. -/
theorem cover8 (i : S4096x256.Idx) : ∃ t : Fin cfg0.N, (cfg0.win 8).flush t = true ∧ i ∈ ((cfg0.win 8).blk t).view.set := by
  refine ⟨lastPointOf (i 0), (flush0_8 _).mpr (lastPointOf_mod _), ?_⟩
  rw [mem_blk8]
  obtain ⟨-, -, -, -, -, -, -, -, -, -, -, -, -, -, e0, e1⟩ := idx_facts (lastPointOf (i 0))
  have hv : (lastPointOf (i 0)).val = 32 * ((i 0).val / 1024) + 31 := rfl
  have h0 := (i 0).isLt
  have h1 : (i 1).val < 256 := (i 1).isLt
  intro a
  match a with
  | ⟨0, _⟩ => show win0_8.index (lastPointOf (i 0)) (0 : Fin 2) * 1024 ≤ (i 0).val ∧ (i 0).val < win0_8.index (lastPointOf (i 0)) (0 : Fin 2) * 1024 + 1024; omega
  | ⟨1, _⟩ => show win0_8.index (lastPointOf (i 0)) (1 : Fin 2) * 256 ≤ (i 1).val ∧ (i 1).val < win0_8.index (lastPointOf (i 0)) (1 : Fin 2) * 256 + 256; omega

end Cert.KernelIdeal.Carry

end
-- ==== Proof.IdealInvariant.lean ====
/-
  The accumulation meets the specification. After the body at point t (memory tile t % 32 of batch tile
  t / 32), row p of the encoder scratch and of the second output's buffer is the encoding of row
  1024·(t/32) + p of the input, and row p of the running minimum has exactly the lower bounds of the
  distances from that encoded row to the first 2048·(t%32 + 1) memory rows (and +inf). By induction on the
  point: a first memory tile computes the encoding afresh and starts the minimum from +inf; a later tile
  keeps the encoding and lowers the minimum by its own 2048 rows. At a last memory tile the first output's
  buffer holds tanh of the running minimum.
-/
import proofs.«101238_j55087250538839_1_alg».proof.Proof.IdealHeld
import proofs.«101238_j55087250538839_1_alg».proof.Proof.IdealPieces
import proofs.«101238_j55087250538839_1_alg».proof.Proof.PayloadAtIndex
import proofs.«101238_j55087250538839_1_alg».proof.Proof.LowerAtIndex
import proofs.«101238_j55087250538839_1_alg».proof.Proof.IdealBlocks

set_option maxRecDepth 16384

noncomputable section

namespace Cert.KernelIdeal.Carry

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Novelty

variable (m : (ℓ : Loc nD τ sig) → Buf (Elt Ideal) ℓ) (ρ : Dev nD → PrngReg)

open Cert.KernelIdeal.AtIndex

/-- An entry of the encoded array, from the arrays as the region finds them. -/
def encOf (c : Dev nD) (a : Fin 4096) (b : Fin 256) : EReal :=
  encRow (fun j => xArr m c (ix2 a j)) (w1Arr m c) (b1Arr m c) (w2Arr m c) (b2Arr m c) b

/-- Within a batch tile the point before has the same rows. -/
theorem rowOf_pred (t : Fin cfg0.N) (h0 : ¬t.val % 32 = 0) (p : Fin 1024) :
    rowOf ⟨t.val - 1, Nat.lt_of_le_of_lt (Nat.sub_le _ _) t.isLt⟩ p = rowOf t p :=
  Fin.ext (by show 1024 * ((t.val - 1) / 32) + p.val = 1024 * (t.val / 32) + p.val; omega)

/-- The encoding of the point's input block is the encoding of the input's rows of its batch tile. -/
theorem enc_of_blocks (c : Dev nD) (t : Fin cfg0.N) (p : Fin 1024) (b : Fin 256) :
    encRow (fun j => iblk m c 0 t (ix2 p j)) (iblk m c 1 t) (iblk m c 2 t) (iblk m c 3 t) (iblk m c 4 t) b
      = encOf m c (rowOf t p) b := by
  rw [blk1_eq, blk2_eq, blk3_eq, blk4_eq]
  unfold encOf
  simp only [blk0_apply]

/-- The lowered minimum's lower bounds, the tile's rows read off the memory and squared-norm arrays. -/
theorem low_step (c : Dev nD) (t : Fin cfg0.N) (e : Fin 256 → EReal) (v3 : Vec Ideal S1024x256 .f32)
    (v24 : Vec Ideal S1024x1 .f32) (p : Fin 1024) (he : ∀ b, v3 (ix2 p b) = e b) (z : EReal) :
    z ≤ k0_pay4 (F := Ideal) v3 (iblk m c 5 t) (iblk m c 6 t) v24 (ix2 p (0 : Fin 1)) ↔
      z ≤ v24 (ix2 p (0 : Fin 1)) ∧ z ≤ infLit ∧
        ∀ q : Fin 2048, z ≤ dist e (fun b => memArr m c (ix2 (tileRow (t.val % 32) (tile_lt t) q) b))
          (m2Arr m c (ix2 (0 : Fin 1) (tileRow (t.val % 32) (tile_lt t) q))) := by
  refine (le_pay4_iff v3 (iblk m c 5 t) (iblk m c 6 t) v24 p z).trans ?_
  simp only [blk5_apply, blk6_apply, he]

/-- What "meets the specification at point t" says of the held contents. -/
structure Meets (c : Dev nD) (t : Fin cfg0.N) (H : Held Ideal) : Prop where
  enc : ∀ (p : Fin 1024) (b : Fin 256), H.enc (ix2 p b) = encOf m c (rowOf t p) b
  encOut : ∀ (p : Fin 1024) (b : Fin 256), H.encOut (ix2 p b) = encOf m c (rowOf t p) b
  low : ∀ (p : Fin 1024) (z : EReal), z ≤ H.low (ix2 p (0 : Fin 1)) ↔
    Below (encOf m c (rowOf t p)) (memArr m c) (m2Arr m c) (2048 * (t.val % 32 + 1)) z

theorem meets_first (c : Dev nD) (t : Fin cfg0.N) (h0 : t.val % 32 = 0) (h1 : ¬t.val % 32 = 31) :
    Meets m c t (firstAt (F := Ideal) m c t h0 h1) where
  enc p b := by
    unfold firstAt; dsimp only
    refine (congrFun (firstEnc_eq (F := Ideal) c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) ((firstTile_iff t).mpr h0) (fun h => h1 ((lastTile_iff t).mp h)) (iblk m c 0 t) (iblk m c 1 t) (iblk m c 2 t) (iblk m c 3 t) (iblk m c 4 t) (iblk m c 5 t) (iblk m c 6 t)) (ix2 p b)).trans ?_
    exact (pay2_apply (iblk m c 0 t) (iblk m c 1 t) (iblk m c 2 t) (iblk m c 3 t) (iblk m c 4 t) p b).trans (enc_of_blocks m c t p b)
  encOut p b := by
    unfold firstAt; dsimp only
    refine (congrFun (firstOut_eq (F := Ideal) c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) ((firstTile_iff t).mpr h0) (fun h => h1 ((lastTile_iff t).mp h)) (iblk m c 0 t) (iblk m c 1 t) (iblk m c 2 t) (iblk m c 3 t) (iblk m c 4 t) (iblk m c 5 t) (iblk m c 6 t)) (ix2 p b)).trans ?_
    exact (pay1_apply (iblk m c 0 t) (iblk m c 1 t) (iblk m c 2 t) (iblk m c 3 t) (iblk m c 4 t) p b).trans (enc_of_blocks m c t p b)
  low p z := by
    unfold firstAt; dsimp only
    rw [congrFun (firstLow_eq (F := Ideal) c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) ((firstTile_iff t).mpr h0) (fun h => h1 ((lastTile_iff t).mp h)) (iblk m c 0 t) (iblk m c 1 t) (iblk m c 2 t) (iblk m c 3 t) (iblk m c 4 t) (iblk m c 5 t) (iblk m c 6 t)) (ix2 p (0 : Fin 1))]
    refine (low_step m c t (encOf m c (rowOf t p)) (k0_pay2 (F := Ideal) (iblk m c 0 t) (iblk m c 1 t) (iblk m c 2 t) (iblk m c 3 t) (iblk m c 4 t)) (k0_pay3 (F := Ideal)) p
      (fun b => (pay2_apply (iblk m c 0 t) (iblk m c 1 t) (iblk m c 2 t) (iblk m c 3 t) (iblk m c 4 t) p b).trans (enc_of_blocks m c t p b)) z).trans ?_
    rw [pay3_apply, below_step _ _ _ (t.val % 32) (tile_lt t)]
    have hb : Below (encOf m c (rowOf t p)) (memArr m c) (m2Arr m c) (2048 * (t.val % 32)) z ↔ z ≤ infLit := by
      have h2 : 2048 * (t.val % 32) = 0 := by omega
      rw [h2]; exact below_zero _ _ _ _
    rw [hb]

theorem meets_later (c : Dev nD) (t : Fin cfg0.N) (h0 : ¬t.val % 32 = 0) (prev : Held Ideal)
    (hp : Meets m c ⟨t.val - 1, Nat.lt_of_le_of_lt (Nat.sub_le _ _) t.isLt⟩ prev) (p : Fin 1024) (z : EReal) :
    z ≤ k0_pay4 (F := Ideal) prev.enc (iblk m c 5 t) (iblk m c 6 t) prev.low (ix2 p (0 : Fin 1)) ↔
      Below (encOf m c (rowOf t p)) (memArr m c) (m2Arr m c) (2048 * (t.val % 32 + 1)) z := by
  refine (low_step m c t (encOf m c (rowOf t p)) prev.enc prev.low p
    (fun b => (hp.enc p b).trans (by rw [rowOf_pred t h0 p])) z).trans ?_
  rw [below_step _ _ _ (t.val % 32) (tile_lt t), hp.low p z, rowOf_pred t h0 p]
  have h2 : 2048 * ((⟨t.val - 1, Nat.lt_of_le_of_lt (Nat.sub_le _ _) t.isLt⟩ : Fin cfg0.N).val % 32 + 1) = 2048 * (t.val % 32) := by
    show 2048 * ((t.val - 1) % 32 + 1) = 2048 * (t.val % 32); omega
  rw [h2]

theorem meets_mid (c : Dev nD) (t : Fin cfg0.N) (h0 : ¬t.val % 32 = 0) (h1 : ¬t.val % 32 = 31) (prev : Held Ideal)
    (hp : Meets m c ⟨t.val - 1, Nat.lt_of_le_of_lt (Nat.sub_le _ _) t.isLt⟩ prev) :
    Meets m c t (midAt (F := Ideal) m c t h0 h1 prev) where
  enc p b := by
    unfold midAt; dsimp only
    exact (hp.enc p b).trans (by rw [rowOf_pred t h0 p])
  encOut p b := by
    unfold midAt; dsimp only
    exact (hp.encOut p b).trans (by rw [rowOf_pred t h0 p])
  low p z := by
    unfold midAt; dsimp only
    rw [congrFun (midLow_eq (F := Ideal) c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) (fun h => h0 ((firstTile_iff t).mp h)) (fun h => h1 ((lastTile_iff t).mp h)) (iblk m c 0 t) (iblk m c 1 t) (iblk m c 2 t) (iblk m c 3 t) (iblk m c 4 t) (iblk m c 5 t) (iblk m c 6 t) prev.enc prev.low) (ix2 p (0 : Fin 1))]
    exact meets_later m c t h0 prev hp p z

theorem meets_last (c : Dev nD) (t : Fin cfg0.N) (h0 : ¬t.val % 32 = 0) (h1 : t.val % 32 = 31) (prev : Held Ideal)
    (hp : Meets m c ⟨t.val - 1, Nat.lt_of_le_of_lt (Nat.sub_le _ _) t.isLt⟩ prev) :
    Meets m c t (lastAt (F := Ideal) m c t h0 h1 prev) where
  enc p b := by
    unfold lastAt; dsimp only
    exact (hp.enc p b).trans (by rw [rowOf_pred t h0 p])
  encOut p b := by
    unfold lastAt; dsimp only
    exact (hp.encOut p b).trans (by rw [rowOf_pred t h0 p])
  low p z := by
    unfold lastAt; dsimp only
    rw [congrFun (lastLow_eq (F := Ideal) c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) (fun h => h0 ((firstTile_iff t).mp h)) ((lastTile_iff t).mpr h1) (iblk m c 0 t) (iblk m c 1 t) (iblk m c 2 t) (iblk m c 3 t) (iblk m c 4 t) (iblk m c 5 t) (iblk m c 6 t) prev.enc prev.low) (ix2 p (0 : Fin 1))]
    exact meets_later m c t h0 prev hp p z

/-- THE INVARIANT: at every point the held contents meet the specification. -/
theorem held_meets (c : Dev nD) : ∀ (n : ℕ) (hn : n < cfg0.N), Meets m c ⟨n, hn⟩ (heldAt (F := Ideal) m c n hn)
  | 0, hn => by
    rw [heldAt_first m c ⟨0, hn⟩ (Nat.zero_mod _) (show ¬0 % 32 = 31 by decide)]
    exact meets_first m c ⟨0, hn⟩ _ _
  | n + 1, hn => by
    by_cases h0 : (n + 1) % 32 = 0
    · rw [heldAt_first m c ⟨n + 1, hn⟩ h0 (show ¬(n + 1) % 32 = 31 by omega)]
      exact meets_first m c ⟨n + 1, hn⟩ _ _
    · by_cases h1 : (n + 1) % 32 = 31
      · rw [heldAt_last m c ⟨n + 1, hn⟩ h0 h1]
        exact meets_last m c ⟨n + 1, hn⟩ h0 h1 _ (held_meets c n (Nat.lt_of_succ_lt hn))
      · rw [heldAt_mid m c ⟨n + 1, hn⟩ h0 h1]
        exact meets_mid m c ⟨n + 1, hn⟩ h0 h1 _ (held_meets c n (Nat.lt_of_succ_lt hn))

/-- At a last memory tile the first output's buffer holds tanh of the running minimum. -/
theorem score_last (c : Dev nD) (t : Fin cfg0.N) (h0 : ¬t.val % 32 = 0) (h1 : t.val % 32 = 31) (p : Fin 1024) :
    (heldAt (F := Ideal) m c t.val t.isLt).score (ix2 p (0 : Fin 1))
      = Ideal.tanh ((heldAt (F := Ideal) m c t.val t.isLt).low (ix2 p (0 : Fin 1))) := by
  rw [heldAt_last m c t h0 h1]
  unfold lastAt; dsimp only
  rw [congrFun (lastScore_eq (F := Ideal) c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) (fun h => h0 ((firstTile_iff t).mp h)) ((lastTile_iff t).mpr h1) (iblk m c 0 t) (iblk m c 1 t) (iblk m c 2 t) (iblk m c 3 t) (iblk m c 4 t) (iblk m c 5 t) (iblk m c 6 t) _ _) (ix2 p (0 : Fin 1)),
    congrFun (lastLow_eq (F := Ideal) c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) encBuf (Memref.isWhole_whole _) minBuf (Memref.isWhole_whole _) (fun h => h0 ((firstTile_iff t).mp h)) ((lastTile_iff t).mpr h1) (iblk m c 0 t) (iblk m c 1 t) (iblk m c 2 t) (iblk m c 3 t) (iblk m c 4 t) (iblk m c 5 t) (iblk m c 6 t) _ _) (ix2 p (0 : Fin 1))]
  exact pay5_apply _ p

end Cert.KernelIdeal.Carry

end
-- ==== Proof.IdealFinal.lean ====
/-
  The kernel's two results as whole-array functions of its arguments. A batch tile's last memory tile
  writes back rows 1024·(t/32) .. of both outputs: of the encoded array the encoding of those input rows,
  of the score column tanh of the running minimum, which by then has the lower bounds of all 65536
  distances and so is the least distance. The four blocks written back cover both arrays.
-/
import proofs.«101238_j55087250538839_1_alg».proof.Proof.IdealBody
import proofs.«101238_j55087250538839_1_alg».proof.Proof.IdealInvariant
import Idealize.ShloMosaic.Lib.StableHlo.Run

set_option maxRecDepth 16384

noncomputable section

namespace Cert.KernelIdeal.Carry

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Novelty

variable (m : (ℓ : Loc nD τ sig) → Buf (Elt Ideal) ℓ) (ρ : Dev nD → PrngReg)

theorem held_meets' (c : Dev nD) (t : Fin cfg0.N) : Meets m c t (heldAt (F := Ideal) m c t.val t.isLt) :=
  held_meets m c t.val t.isLt

/-- What a last memory tile writes back to the encoded array is its block of the whole encoded array. -/
theorem flushed8_eq (c : Dev nD) (t : Fin cfg0.N) (hf : (cfg0.win 8).flush t = true) :
    (dats (F := Ideal) m 0 c).flushed 8 t
      = ((cfg0.win 8).blk t).view.read (Elt Ideal) (encAll (xArr m c) (w1Arr m c) (b1Arr m c) (w2Arr m c) (b2Arr m c)) := by
  show (cfg0.win 8).cut (grid0.coords t) ((dats (F := Ideal) m 0 c).after 8 t) = _
  rw [after8]
  funext y
  obtain ⟨p, b, rfl⟩ : ∃ (p : Fin 1024) (b : Fin 256), y = ix2 p b := ⟨y 0, y 1, eq_ix2 y⟩
  show (heldAt (F := Ideal) m c t.val t.isLt).encOut (ix2 p b)
    = encAll (xArr m c) (w1Arr m c) (b1Arr m c) (w2Arr m c) (b2Arr m c) (((cfg0.win 8).blk t).view.emb (ix2 p b))
  rw [(held_meets' m c t).encOut p b, emb8]
  rfl

/-- The encoded array after the run. -/
theorem final8 (c : Dev nD) :
    (dats (F := Ideal) m 0 c).arrAt 8 cfg0.N = encAll (xArr m c) (w1Arr m c) (b1Arr m c) (w2Arr m c) (b2Arr m c) :=
  (dats (F := Ideal) m 0 c).arrAt_eq_of_cover 8 _ (fun t hf => flushed8_eq m c t hf) cover8

/-- An index of a one-column block is its row and column 0. -/
theorem eq_col (y : (⟨2, ![1024, 1]⟩ : Shape).Idx) : y = ix2 (y 0) (0 : Fin 1) :=
  (eq_ix2 y).trans (congrArg (fun q : Fin 1 => ix2 (y 0) q) (Subsingleton.elim _ _))

/-- At a last memory tile, row p of the first output's buffer is the score of row 1024·(t/32) + p. -/
theorem score_at (c : Dev nD) (t : Fin cfg0.N) (h0 : ¬t.val % 32 = 0) (h1 : t.val % 32 = 31) (p : Fin 1024) :
    (heldAt (F := Ideal) m c t.val t.isLt).score (ix2 p (0 : Fin 1))
      = scoreAll (xArr m c) (w1Arr m c) (b1Arr m c) (w2Arr m c) (b2Arr m c) (memArr m c) (m2Arr m c)
          (ix2 (rowOf t p) (0 : Fin 1)) := by
  rw [score_last m c t h0 h1 p]
  show Ideal.tanh _ = Ideal.tanh (lowest (encOf m c (rowOf t p)) (memArr m c) (m2Arr m c))
  refine congrArg Ideal.tanh (eq_of_below fun z => ?_)
  rw [le_lowest_iff, (held_meets' m c t).low p z]
  have h2 : 2048 * (t.val % 32 + 1) = 65536 := by omega
  rw [h2]

/-- Row p of a batch tile's block of a one-column array is row 1024·(t/32) + p of the array. -/
theorem read_blk7 (G : Vec Ideal S4096x1 .f32) (t : Fin cfg0.N) (p : Fin 1024) :
    ((cfg0.win 7).blk t).view.read (Elt Ideal) G (ix2 p (0 : Fin 1)) = G (ix2 (rowOf t p) (0 : Fin 1)) := by
  show G (((cfg0.win 7).blk t).view.emb (ix2 p (0 : Fin 1))) = _
  rw [emb7]

/-- What a last memory tile writes back to the score column is its block of the whole score column. -/
theorem flushed7_eq (c : Dev nD) (t : Fin cfg0.N) (hf : (cfg0.win 7).flush t = true) :
    (dats (F := Ideal) m 0 c).flushed 7 t
      = ((cfg0.win 7).blk t).view.read (Elt Ideal)
          (scoreAll (xArr m c) (w1Arr m c) (b1Arr m c) (w2Arr m c) (b2Arr m c) (memArr m c) (m2Arr m c)) := by
  have h1 : t.val % 32 = 31 := (flush0_7 t).mp hf
  have h0 : ¬t.val % 32 = 0 := by omega
  show (cfg0.win 7).cut (grid0.coords t) ((dats (F := Ideal) m 0 c).after 7 t) = _
  rw [after7]
  funext y
  obtain ⟨p, rfl⟩ : ∃ p : Fin 1024, y = ix2 p (0 : Fin 1) := ⟨y 0, eq_col y⟩
  exact (score_at m c t h0 h1 p).trans (read_blk7 _ t p).symm

/-- The score column after the run. -/
theorem final7 (c : Dev nD) :
    (dats (F := Ideal) m 0 c).arrAt 7 cfg0.N
      = scoreAll (xArr m c) (w1Arr m c) (b1Arr m c) (w2Arr m c) (b2Arr m c) (memArr m c) (m2Arr m c) :=
  (dats (F := Ideal) m 0 c).arrAt_eq_of_cover 7 _ (fun t hf => flushed7_eq m c t hf) cover7

/-- The squared norms of the memory rows, as the host computes them before the region: the row sums of
    the memory's elementwise square, as a row vector. -/
def normsOf (x5 : Vec Ideal S65536x256 .f32) : Vec Ideal S1x65536 .f32 :=
  broadcastInDim S1x65536 ![1] bcast_S65536_S1x65536_1
    (Host.reduceAdd (mulf x5 x5) (constant (F := Ideal) S_ .f32 0x00000000#32) reducesTo_S65536x256_S65536_d1 h_S_)

theorem m2Arr_eq (c : Dev nD) : m2Arr m c = normsOf (m ((c.tc : Thread nD τ).loc main_arg5)) := by
  show (V m c main_v2 : S1x65536.Idx → EReal) = _
  unfold normsOf
  dsimp only [Gen.V, Gen.hostOps0]; after_results

/-- THE KERNEL'S RUN, READ: every weakly fair execution terminates with the score column and the encoded
    array at their whole-array functions of the arguments, the arguments unchanged. -/
theorem run_value : θ_run defs (onTc (τ := τ) (main (F := Ideal))) ⟨m, fun _ => 0, ρ⟩ fun r => ∀ c : Dev nD,
      r.2.mem ((c.tc : Thread nD τ).loc main_v3_0)
        = scoreAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (normsOf (m ((c.tc : Thread nD τ).loc main_arg5)))
      ∧ r.2.mem ((c.tc : Thread nD τ).loc main_v3_1)
        = encAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨(((h c).1 7).trans (final7 m c)).trans (by
        rw [m2Arr_eq m c]
        show scoreAll (V m c main_arg0) (V m c main_arg1) (V m c main_arg2) (V m c main_arg3) (V m c main_arg4) (V m c main_arg5) _ = _
        rw [V_main_arg0, V_main_arg1, V_main_arg2, V_main_arg3, V_main_arg4, V_main_arg5]),
      (((h c).1 8).trans (final8 m c)).trans (by
        show encAll (V m c main_arg0) (V m c main_arg1) (V m c main_arg2) (V m c main_arg3) (V m c main_arg4) = _
        rw [V_main_arg0, V_main_arg1, V_main_arg2, V_main_arg3, V_main_arg4]),
      ((h c).1 0).trans (((dats (F := Ideal) m 0 c).arrAt_in 0 rfl _).trans ((A_eq m c 0).trans (V_main_arg0 m c))),
      ((h c).1 1).trans (((dats (F := Ideal) m 0 c).arrAt_in 1 rfl _).trans ((A_eq m c 1).trans (V_main_arg1 m c))),
      ((h c).1 2).trans (((dats (F := Ideal) m 0 c).arrAt_in 2 rfl _).trans ((A_eq m c 2).trans (V_main_arg2 m c))),
      ((h c).1 3).trans (((dats (F := Ideal) m 0 c).arrAt_in 3 rfl _).trans ((A_eq m c 3).trans (V_main_arg3 m c))),
      ((h c).1 4).trans (((dats (F := Ideal) m 0 c).arrAt_in 4 rfl _).trans ((A_eq m c 4).trans (V_main_arg4 m c))),
      ((h c).1 5).trans (((dats (F := Ideal) m 0 c).arrAt_in 5 rfl _).trans ((A_eq m c 5).trans (V_main_arg5 m c)))⟩)
    (run_main (F := Ideal) m ρ)

end Cert.KernelIdeal.Carry

end
-- ==== Proof.ReferenceEncAtIndex.lean ====
/-
  The reference's encoded array as a whole-array function of its arguments, on the extended reals: the
  row-wise encoding of the input (two matrix products with a bias each and a ReLU between).
-/
import proofs.«101238_j55087250538839_1_alg».proof.Proof.Spec
import proofs.«101238_j55087250538839_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.AtIndex

open Idealize.ShloMosaic Idealize.ShloMosaic.ValueIdx Idealize.ShloMosaic.TcCoe
open Cert.ReferenceIdeal Cert.ReferenceIdeal.Gen Cert.ReferenceIdeal.Read Cert.Novelty

/-! ## Where each operation reads its operands

Entry (a, b) of the second product is the sum over k of the hidden array at (a, k) times the second weight
matrix at (k, b); entry (a, k) of the first product is the sum over j of the input at (a, j) times the first
weight matrix at (j, k). A bias is broadcast first to one row and then down the rows, so at (a, c) it is read
at c alone. -/

/-- The second product's left operand, for entry (a, b) and contracted position k, is read at (a, k). -/
private theorem lidx5 (a : Fin 4096) (b : Fin 256) (k : Fin 1024) : lidx_main_v5 (ix2 a b) k = ix2 a k :=
  funext fun d => Fin.ext (by match d with | ⟨0, _⟩ => rfl | ⟨1, _⟩ => rfl)

/-- The second product's right operand, for entry (a, b) and contracted position k, is read at (k, b). -/
private theorem ridx5 (a : Fin 4096) (b : Fin 256) (k : Fin 1024) : ridx_main_v5 (ix2 a b) k = ix2 k b :=
  funext fun d => Fin.ext (by match d with | ⟨0, _⟩ => rfl | ⟨1, _⟩ => rfl)

/-- The second bias, broadcast to a row and then down the rows, is read at b for entry (a, b). -/
private theorem idx67 (a : Fin 4096) (b : Fin 256) : idx_main_v6 (idx_main_v7 (ix2 a b)) = ix1 b :=
  funext fun d => Fin.ext (by match d with | ⟨0, _⟩ => rfl)

/-- The first product's left operand, for entry (a, k) and contracted position j, is read at (a, j). -/
private theorem lidx0 (a : Fin 4096) (k : Fin 1024) (j : Fin 256) : lidx_main_v0 (ix2 a k) j = ix2 a j :=
  funext fun d => Fin.ext (by match d with | ⟨0, _⟩ => rfl | ⟨1, _⟩ => rfl)

/-- The first product's right operand, for entry (a, k) and contracted position j, is read at (j, k). -/
private theorem ridx0 (a : Fin 4096) (k : Fin 1024) (j : Fin 256) : ridx_main_v0 (ix2 a k) j = ix2 j k :=
  funext fun d => Fin.ext (by match d with | ⟨0, _⟩ => rfl | ⟨1, _⟩ => rfl)

/-- The first bias, broadcast to a row and then down the rows, is read at k for entry (a, k). -/
private theorem idx12 (a : Fin 4096) (k : Fin 1024) : idx_main_v1 (idx_main_v2 (ix2 a k)) = ix1 k :=
  funext fun d => Fin.ext (by match d with | ⟨0, _⟩ => rfl)

/-- The reference's encoded array is the row-wise encoding: at (a, b) it is
    (Σ_k max((Σ_j x[a,j]·W1[j,k]) + b1[k], 0) · W2[k,b]) + b2[b], the zero being the literal's word, left as it is. -/
theorem ref_enc (x0 : (⟨S4096x256, .f32⟩ : BufTy).Contents (Elt Ideal)) (x1 : (⟨S256x1024, .f32⟩ : BufTy).Contents (Elt Ideal))
    (x2 : (⟨S1024, .f32⟩ : BufTy).Contents (Elt Ideal)) (x3 : (⟨S1024x256, .f32⟩ : BufTy).Contents (Elt Ideal))
    (x4 : (⟨S256, .f32⟩ : BufTy).Contents (Elt Ideal)) :
    val_main_v8 (F := Ideal) x0 x1 x2 x3 x4 = encAll x0 x1 x2 x3 x4 := by
  funext i
  obtain ⟨a, b, rfl⟩ : ∃ (a : Fin 4096) (b : Fin 256), i = ix2 a b := ⟨i 0, i 1, eq_ix2 i⟩
  -- the outer sum and its bias, read at (a, b)
  rw [val_main_v8_apply, val_main_v5_apply, val_main_v7_apply, val_main_v6_apply]
  -- under the outer sum: the ReLU, the inner sum and its bias, each read at (a, k)
  simp only [lidx5, ridx5, idx67, val_main_v4_apply, val_main_v3_apply, val_main_call0_v0_apply, val_main_call0_cst_apply,
    val_main_v0_apply, val_main_v2_apply, val_main_v1_apply, lidx0, ridx0, idx12]
  -- on the extended reals the operations are +, max and the literal's word; both sides are now the same term
  simp only [Ideal.addf_def, Ideal.maximumf_def, Ideal.ofBits_def]
  rfl

end Cert.ReferenceIdeal.AtIndex

end
-- ==== Proof.ReferenceAtIndex.lean ====
/-
  The reference's score column as a whole-array function of its arguments, on the extended reals: tanh of
  the least distance from each encoded row to the memory rows, the memory rows' squared norms being the
  host's own row sums (kept as the stage that computes them). The encoded array is the row-wise encoding
  (proved beside this module).
-/
import proofs.«101238_j55087250538839_1_alg».proof.Proof.Spec
import proofs.«101238_j55087250538839_1_alg».proof.Proof.ReferenceEncAtIndex
import proofs.«101238_j55087250538839_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.AtIndex

open Idealize.ShloMosaic Idealize.ShloMosaic.ValueIdx Idealize.ShloMosaic.TcCoe
open Cert.ReferenceIdeal Cert.ReferenceIdeal.Gen Cert.ReferenceIdeal.Read Cert.Novelty

/-- One entry of the distance array: at (a, r) it is the distance from the encoded row a to the memory row r,
    sqrt(max((Σ_b enc_b² + n_r) − 2·Σ_b enc_b·mem[r,b], 0)), the squared norm n_r read from the stage that holds it.
    The sum of squares starts from the zero word, which is the extended real 0 and drops out. -/
private theorem v25_entry (x0 : (⟨S4096x256, .f32⟩ : BufTy).Contents (Elt Ideal)) (x1 : (⟨S256x1024, .f32⟩ : BufTy).Contents (Elt Ideal))
    (x2 : (⟨S1024, .f32⟩ : BufTy).Contents (Elt Ideal)) (x3 : (⟨S1024x256, .f32⟩ : BufTy).Contents (Elt Ideal))
    (x4 : (⟨S256, .f32⟩ : BufTy).Contents (Elt Ideal)) (x5 : (⟨S65536x256, .f32⟩ : BufTy).Contents (Elt Ideal))
    (a : Fin 4096) (r : Fin 65536) :
    val_main_v25 (F := Ideal) x0 x1 x2 x3 x4 x5 (ix2 a r)
      = dist (fun b => encRow (fun j => x0 (ix2 a j)) x1 x2 x3 x4 b) (fun b => x5 (ix2 r b))
          (val_main_v14 (F := Ideal) x5 (ix2 (0 : Fin 1) r)) := by
  have i16 : idx_main_v16 (ix2 a r) = ix2 (0 : Fin 1) r := funext fun c => Fin.ext (by
    match c with
    | ⟨0, _⟩ => rfl
    | ⟨1, _⟩ => rfl)
  have i10 : ∀ k : Fin 256, idx_main_v10 (idx_main_v11 (idx_main_v15 (ix2 a r))) k = ix2 a k := fun k => funext fun c => Fin.ext (by
    match c with
    | ⟨0, _⟩ => rfl
    | ⟨1, _⟩ => rfl)
  have i19 : ∀ k : Fin 256, lidx_main_v19 (ix2 a r) k = ix2 a k := fun k => funext fun c => Fin.ext (by
    match c with
    | ⟨0, _⟩ => rfl
    | ⟨1, _⟩ => rfl)
  have i18 : ∀ k : Fin 256, idx_main_v18 (ridx_main_v19 (ix2 a r) k) = ix2 r k := fun k => funext fun c => Fin.ext (by
    match c with
    | ⟨0, _⟩ => rfl
    | ⟨1, _⟩ => rfl)
  have e8 : ∀ k : Fin 256, val_main_v8 (F := Ideal) x0 x1 x2 x3 x4 (ix2 a k) = encRow (fun j => x0 (ix2 a j)) x1 x2 x3 x4 k :=
    fun k => (congrFun (ref_enc x0 x1 x2 x3 x4) (ix2 a k)).trans rfl
  have s1 : ∑ k : Fin 256, val_main_v9 (F := Ideal) x0 x1 x2 x3 x4 (idx_main_v10 (idx_main_v11 (idx_main_v15 (ix2 a r))) k)
      = ∑ b : Fin 256, encRow (fun j => x0 (ix2 a j)) x1 x2 x3 x4 b * encRow (fun j => x0 (ix2 a j)) x1 x2 x3 x4 b :=
    Finset.sum_congr rfl fun k _ => by rw [i10 k, val_main_v9_apply, Ideal.mulf_def, e8 k]
  have s2 : ∑ k : Fin 256, val_main_v8 (F := Ideal) x0 x1 x2 x3 x4 (lidx_main_v19 (ix2 a r) k) * val_main_v18 (F := Ideal) x5 (ridx_main_v19 (ix2 a r) k)
      = ∑ b : Fin 256, encRow (fun j => x0 (ix2 a j)) x1 x2 x3 x4 b * x5 (ix2 r b) :=
    Finset.sum_congr rfl fun k _ => by rw [i19 k, e8 k, val_main_v18_apply, i18 k]
  unfold Novelty.dist
  rw [val_main_v25_apply, Ideal.hostUnary_sqrt_def, val_main_v24_apply, Ideal.maximumf_def, val_main_v23_apply, val_main_cst_2_apply,
    Ideal.ofBits_def, val_main_v22_apply, Ideal.subf_def, val_main_v17_apply, Ideal.addf_def, val_main_v15_apply, val_main_v11_apply,
    val_main_v10_apply, val_main_cst_apply, Ideal.ofBits_def, Ideal.ofBits_zero_f32, zero_add, val_main_v16_apply, i16,
    val_main_v21_apply, Ideal.mulf_def, val_main_v20_apply, val_main_cst_1_apply, Ideal.ofBits_def, val_main_v19_apply, s1, s2, ← Ideal.ofBits_zero_f32]

/-- The least entry of row a of the distance array, taken from +inf: the reduction over the second axis is the fold of
    min over that axis's 65536 coordinates, so z is below it iff z is below +inf and below every entry of the row. -/
private theorem v26_le_iff (x0 : (⟨S4096x256, .f32⟩ : BufTy).Contents (Elt Ideal)) (x1 : (⟨S256x1024, .f32⟩ : BufTy).Contents (Elt Ideal))
    (x2 : (⟨S1024, .f32⟩ : BufTy).Contents (Elt Ideal)) (x3 : (⟨S1024x256, .f32⟩ : BufTy).Contents (Elt Ideal))
    (x4 : (⟨S256, .f32⟩ : BufTy).Contents (Elt Ideal)) (x5 : (⟨S65536x256, .f32⟩ : BufTy).Contents (Elt Ideal))
    (a : Fin 4096) (z : EReal) :
    z ≤ val_main_v26 (F := Ideal) x0 x1 x2 x3 x4 x5 (ix1 a) ↔
      z ≤ infLit ∧ ∀ r : Fin 65536, z ≤ val_main_v25 (F := Ideal) x0 x1 x2 x3 x4 x5 (ix2 a r) := by
  unfold val_main_v26
  generalize val_main_v25 (F := Ideal) x0 x1 x2 x3 x4 x5 = y
  have h : Shape.Reduces S4096x65536 [1] S4096 := by decide
  have hl : ∀ r : Fin 65536, h.lift (ix1 a) r = ix2 a r := fun r => funext fun c => Fin.ext (by
    match c with
    | ⟨0, _⟩ => rfl
    | ⟨1, _⟩ => rfl)
  rw [Host.reduce_eq_fold_single (FloatOps.minimumf (F := Ideal) (φ := .f32)) y (val_main_cst_3 (F := Ideal)) reducesTo_S4096x65536_S4096_d1 h h_S_ (ix1 a)]
  refine Iff.trans (Finset.le_fold_min (β := EReal) (α := Fin 65536) (s := Finset.univ) (b := infLit) (f := fun r => y (h.lift (ix1 a) r)) z) ?_
  refine and_congr_right fun _ => ⟨fun H r => ?_, fun H r _ => ?_⟩
  · have := H r (Finset.mem_univ r)
    rwa [hl r] at this
  · rw [hl r]; exact H r

theorem ref_score (x0 : (⟨S4096x256, .f32⟩ : BufTy).Contents (Elt Ideal)) (x1 : (⟨S256x1024, .f32⟩ : BufTy).Contents (Elt Ideal))
    (x2 : (⟨S1024, .f32⟩ : BufTy).Contents (Elt Ideal)) (x3 : (⟨S1024x256, .f32⟩ : BufTy).Contents (Elt Ideal))
    (x4 : (⟨S256, .f32⟩ : BufTy).Contents (Elt Ideal)) (x5 : (⟨S65536x256, .f32⟩ : BufTy).Contents (Elt Ideal)) :
    val_main_v28 (F := Ideal) x0 x1 x2 x3 x4 x5 = scoreAll x0 x1 x2 x3 x4 x5 (val_main_v14 (F := Ideal) x5) := by
  -- an index of the score column is (a, 0)
  funext i
  obtain ⟨a, b, rfl⟩ : ∃ (a : Fin 4096) (b : Fin 1), i = ix2 a b := ⟨i 0, i 1, eq_ix2 i⟩
  have i27 : idx_main_v27 (ix2 a b) = ix1 a := funext fun c => Fin.ext (by
    match c with
    | ⟨0, _⟩ => rfl)
  -- the score there is tanh of the reduced column at a
  rw [val_main_v28_apply, Ideal.hostUnary_tanh_def, val_main_v27_apply, i27]
  show Ideal.tanh _ = Ideal.tanh (lowest (fun b => encRow (fun j => x0 (ix2 a j)) x1 x2 x3 x4 b) x5 (val_main_v14 (F := Ideal) x5))
  -- two extended reals with the same lower bounds are equal; both sides' lower bounds are those of +inf and of every distance
  refine congrArg Ideal.tanh (eq_of_below fun z => ?_)
  rw [le_lowest_iff, v26_le_iff]
  unfold Below
  refine and_congr_right fun _ => ⟨fun H r _ => ?_, fun H r => ?_⟩
  · rw [← v25_entry]; exact H r
  · rw [v25_entry]; exact H r r.isLt

end Cert.ReferenceIdeal.AtIndex

end
-- ==== Proof.lean ====
/-
  The certificate of a novelty score: an encoder (two matrix products with a bias each and a ReLU
  between) followed by the minimum Euclidean distance from each encoded row to the rows of a memory
  matrix, through tanh. The kernel walks a grid of 4 batch tiles by 32 memory tiles, keeps the encoder
  block and a running minimum in scratch, and writes the encoder block and tanh of the final minimum
  back at each batch tile's last memory tile; the reference computes the same on whole arrays.
  Both idealized programs end with the encoded array at the row-wise encoding of the input and the
  score column at tanh of the least distance to the memory rows (the least of 32 per-tile minima taken
  in turn from +inf is the least of all, by its lower bounds), the memory rows' squared norms being the
  same host row sums in both. The three frames, the (empty) idealization ledger and that equality.
-/
import proofs.«101238_j55087250538839_1_alg».proof.Defs
import proofs.«101238_j55087250538839_1_alg».proof.Proof.Gen.Kernel
import proofs.«101238_j55087250538839_1_alg».proof.Proof.Gen.KernelIdeal
import proofs.«101238_j55087250538839_1_alg».proof.Proof.Gen.ReferenceIdeal
import proofs.«101238_j55087250538839_1_alg».proof.Proof.Gen.Pre_finite_inputs
import proofs.«101238_j55087250538839_1_alg».proof.Proof.Gen.ReferenceIdeal.Run
import proofs.«101238_j55087250538839_1_alg».proof.Proof.Gen.ReferenceIdeal.Read
import proofs.«101238_j55087250538839_1_alg».proof.Proof.BitsBody
import proofs.«101238_j55087250538839_1_alg».proof.Proof.IdealBody
import proofs.«101238_j55087250538839_1_alg».proof.Proof.IdealFinal
import proofs.«101238_j55087250538839_1_alg».proof.Proof.ReferenceAtIndex
import Idealize.ShloMosaic.Adequacy
import Idealize.ShloMosaic.Init

noncomputable section

namespace Cert.Proof

open Idealize.ShloMosaic Idealize.SL.Sem

theorem frame_p : Cert.frame_Kernel (hKernel := Cert.Kernel.Gen.facts) (hPre_finite_inputs := Cert.Pre_finite_inputs.Gen.facts) :=
  fun m ρ _ => Cert.Kernel.Carry.frame (F := Bits) m ρ

theorem frame_pi : Cert.frame_KernelIdeal (hKernelIdeal := Cert.KernelIdeal.Gen.facts) (hPre_finite_inputs := Cert.Pre_finite_inputs.Gen.facts) :=
  fun m ρ _ => Cert.KernelIdeal.Carry.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The reference's stage for the memory rows' squared norms is the kernel program's host computation of
    them: the same three operations on the same array. -/
theorem norms_eq (x5 : Vec Ideal Cert.KernelIdeal.S65536x256 .f32) :
    Cert.ReferenceIdeal.Read.val_main_v14 (F := Ideal) x5 = Cert.KernelIdeal.Carry.normsOf x5 := rfl

/-- From memories that agree on the six arguments both idealized programs run and end with the same score
    column and the same encoded array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Carry.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v28_eq, Cert.ReferenceIdeal.AtIndex.ref_score, norms_eq,
      (hagree c).1, (hagree c).2.1, (hagree c).2.2.1, (hagree c).2.2.2.1, (hagree c).2.2.2.2.1, (hagree c).2.2.2.2.2]
  · rw [Cert.ReferenceIdeal.Read.val_main_v8_eq, Cert.ReferenceIdeal.AtIndex.ref_enc,
      (hagree c).1, (hagree c).2.1, (hagree c).2.2.1, (hagree c).2.2.2.1, (hagree c).2.2.2.2.1]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
